-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x256 : Shape := ⟨3, ![32, 128, 256]⟩
abbrev S32x128x128 : Shape := ⟨3, ![32, 128, 128]⟩
abbrev S256x5 : Shape := ⟨2, ![256, 5]⟩
abbrev S64x5 : Shape := ⟨2, ![64, 5]⟩
abbrev S64 : Shape := ⟨1, ![64]⟩
abbrev S32x128 : Shape := ⟨2, ![32, 128]⟩
abbrev S_ : Shape := ⟨0, ![]⟩

class Facts : Prop where
  bcast_S_S32x128x256 : S_.BroadcastsInDim S32x128x256 (![] : Fin 0 → Fin S32x128x256.rank)
  reducesTo_S32x128x256_S_d0_1_2 : S32x128x256.ReducesTo [0, 1, 2] S_
  h_S_ : 0 < S_.numel
  bcast_S_S32x128x128 : S_.BroadcastsInDim S32x128x128 (![] : Fin 0 → Fin S32x128x128.rank)
  reducesTo_S32x128x128_S_d0_1_2 : S32x128x128.ReducesTo [0, 1, 2] S_
  bcast_S_S256x5 : S_.BroadcastsInDim S256x5 (![] : Fin 0 → Fin S256x5.rank)
  reducesTo_S256x5_S_d0_1 : S256x5.ReducesTo [0, 1] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x5 1) : IVec S_ 1 :=
  let main_c_5 : IVec S_ 1 := constantI S_ 1 1#1
  let main_v17 : IVec S_ 1 := (fun x v => Host.reduce IntOp.andi x v reducesTo_S64x5_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S32x128x256 .f32) (main_arg1 : FVec F S32x128x128 .f32) (main_arg2 : FVec F S256x5 .f32) (main_arg3 : FVec F S64x5 .f32) (main_arg4 : FVec F S64 .f32) (main_arg5 : FVec F S64 .f32) (main_arg6 : IVec S32x128x128 32) (main_arg7 : IVec S32x128 32) (main_arg8 : IVec S32x128 32) : IVec S_ 1 :=
  let main_v0 : FVec F S32x128x256 .f32 := Host.absf main_arg0
  let main_cst : FVec F S_ .f32 := constant S_ .f32 0x7F800000#32
  let main_v1 : FVec F S32x128x256 .f32 := broadcastInDim S32x128x256 ![] bcast_S_S32x128x256 main_cst
  let main_v2 : IVec S32x128x256 1 := cmpf .olt main_v0 main_v1
  let main_c : IVec S_ 1 := constantI S_ 1 1#1
  let main_v3 : IVec S_ 1 := (fun x v => Host.reduce IntOp.andi x v reducesTo_S32x128x256_S_d0_1_2 h_S_) main_v2 main_c
  let main_v4 : FVec F S32x128x128 .f32 := Host.absf main_arg1
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  let main_v9 : FVec F S256x5 .f32 := Host.absf main_arg2
  let main_cst_2 : FVec F S_ .f32 := constant S_ .f32 0x7F800000#32
  let main_v10 : FVec F S256x5 .f32 := broadcastInDim S256x5 ![] bcast_S_S256x5 main_cst_2
  let main_v11 : IVec S256x5 1 := cmpf .olt main_v9 main_v10
  let main_c_3 : IVec S_ 1 := constantI S_ 1 1#1
  let main_v12 : IVec S_ 1 := (fun x v => Host.reduce IntOp.andi x v reducesTo_S256x5_S_d0_1 h_S_) main_v11 main_c_3
  let main_v13 : IVec S_ 1 := andi main_v8 main_v12
  let main_v14 : FVec F S64x5 .f32 := Host.absf main_arg3
  let main_cst_4 : FVec F S_ .f32 := constant S_ .f32 0x7F800000#32
  let main_v15 : FVec F S64x5 .f32 := broadcastInDim S64x5 ![] bcast_S_S64x5 main_cst_4
  let main_v16 : IVec S64x5 1 := cmpf .olt main_v14 main_v15
  fn_part1 (F := F) main_arg4 main_arg5 main_v13 main_v16
-- ==== Kernel.lean ====
abbrev S32x128x256 : Shape := ⟨3, ![32, 128, 256]⟩
abbrev S32x128x128 : Shape := ⟨3, ![32, 128, 128]⟩
abbrev S256x5 : Shape := ⟨2, ![256, 5]⟩
abbrev S64x5 : Shape := ⟨2, ![64, 5]⟩
abbrev S64 : Shape := ⟨1, ![64]⟩
abbrev S32x128 : Shape := ⟨2, ![32, 128]⟩
abbrev S64x1x1 : Shape := ⟨3, ![64, 1, 1]⟩
abbrev S5x64 : Shape := ⟨2, ![5, 64]⟩
abbrev S5x64x1x1 : Shape := ⟨4, ![5, 64, 1, 1]⟩
abbrev S1x128x256 : Shape := ⟨3, ![1, 128, 256]⟩
abbrev S1x128x128 : Shape := ⟨3, ![1, 128, 128]⟩
abbrev S128x256 : Shape := ⟨2, ![128, 256]⟩
abbrev S128x128 : Shape := ⟨2, ![128, 128]⟩
abbrev S64x128x128 : Shape := ⟨3, ![64, 128, 128]⟩
abbrev S256x1 : Shape := ⟨2, ![256, 1]⟩
abbrev S256 : Shape := ⟨1, ![256]⟩
abbrev S1x256 : Shape := ⟨2, ![1, 256]⟩
abbrev S1x64x1x1 : Shape := ⟨4, ![1, 64, 1, 1]⟩
abbrev S128 : Shape := ⟨1, ![128]⟩
abbrev S128x1 : Shape := ⟨2, ![128, 1]⟩

abbrev nBuf : Space → Nat
  | .hbm => 14
  | .vmem => 12
  | .smem => 0
  | _ => 0

abbrev bufTy : (tb : Table) → Fin (tcTables nBuf tb) → BufTy
  | .hbm, ⟨0, _⟩ => ⟨S32x128x256, .f32⟩
  | .hbm, ⟨1, _⟩ => ⟨S32x128x128, .f32⟩
  | .hbm, ⟨2, _⟩ => ⟨S256x5, .f32⟩
  | .hbm, ⟨3, _⟩ => ⟨S64x5, .f32⟩
  | .hbm, ⟨4, _⟩ => ⟨S64, .f32⟩
  | .hbm, ⟨5, _⟩ => ⟨S64, .f32⟩
  | .hbm, ⟨6, _⟩ => ⟨S32x128x128, .i32⟩
  | .hbm, ⟨7, _⟩ => ⟨S32x128, .i32⟩
  | .hbm, ⟨8, _⟩ => ⟨S32x128, .i32⟩
  | .hbm, ⟨9, _⟩ => ⟨S64x1x1, .f32⟩
  | .hbm, ⟨10, _⟩ => ⟨S64x1x1, .f32⟩
  | .hbm, ⟨11, _⟩ => ⟨S5x64, .f32⟩
  | .hbm, ⟨12, _⟩ => ⟨S5x64x1x1, .f32⟩
  | .hbm, ⟨13, _⟩ => ⟨S32x128x256, .f32⟩
  | .local _ .vmem, ⟨0, _⟩ => ⟨S1x128x256, .f32⟩
  | .local _ .vmem, ⟨1, _⟩ => ⟨S1x128x256, .f32⟩
  | .local _ .vmem, ⟨2, _⟩ => ⟨S1x128x128, .i32⟩
  | .local _ .vmem, ⟨3, _⟩ => ⟨S1x128x128, .i32⟩
  | .local _ .vmem, ⟨4, _⟩ => ⟨S1x128x128, .f32⟩
  | .local _ .vmem, ⟨5, _⟩ => ⟨S1x128x128, .f32⟩
  | .local _ .vmem, ⟨6, _⟩ => ⟨S256x5, .f32⟩
  | .local _ .vmem, ⟨7, _⟩ => ⟨S5x64x1x1, .f32⟩
  | .local _ .vmem, ⟨8, _⟩ => ⟨S64x1x1, .f32⟩
  | .local _ .vmem, ⟨9, _⟩ => ⟨S64x1x1, .f32⟩
  | .local _ .vmem, ⟨10, _⟩ => ⟨S1x128x256, .f32⟩
  | .local _ .vmem, ⟨11, _⟩ => ⟨S1x128x256, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x64x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S64x1x1 : S64.ShapeCasts S64x1x1
  transposes_S64x5_S5x64_1_0 : S64x5.Transposes [1, 0] S5x64
  shapeCasts_S5x64_S5x64x1x1 : S5x64.ShapeCasts S5x64x1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S256x5_S256x5_0_0 : ∀ a, (![0, 0] : Fin 2 → Nat) a + S256x5.size a ≤ S256x5.size a
  h_S256x5 : 0 < S256x5.numel
  inb_S5x64x1x1_S5x64x1x1_0_0_0_0 : ∀ a, (![0, 0, 0, 0] : Fin 4 → Nat) a + S5x64x1x1.size a ≤ S5x64x1x1.size a
  h_S5x64x1x1 : 0 < S5x64x1x1.numel
  shapeCasts_S5x64x1x1_S5x64x1x1 : S5x64x1x1.ShapeCasts S5x64x1x1
  inb_S64x1x1_S64x1x1_0_0_0 : ∀ a, (![0, 0, 0] : Fin 3 → Nat) a + S64x1x1.size a ≤ S64x1x1.size a
  h_S64x1x1 : 0 < S64x1x1.numel
  shapeCasts_S64x1x1_S64x1x1 : S64x1x1.ShapeCasts S64x1x1
  bitsLt_bf16_f32 : FTy.bits .bf16 < FTy.bits .f32
  shapeCasts_S128x128_S1x128x128 : S128x128.ShapeCasts S1x128x128
  broadcasts_S64x1x1_S64x128x128 : S64x1x1.Broadcasts S64x128x128
  broadcasts_S1x128x128_S64x128x128 : S1x128x128.Broadcasts S64x128x128
  slices_S256x5_o0_0_S256x1 : S256x5.Slices ![0, 0] S256x1
  shapeCasts_S256x1_S256 : S256x1.ShapeCasts S256
  shapeCasts_S256_S1x256 : S256.ShapeCasts S1x256
  broadcasts_S1x256_S128x256 : S1x256.Broadcasts S128x256
  slices_S5x64x1x1_o0_0_0_0_S1x64x1x1 : S5x64x1x1.Slices ![0, 0, 0, 0] S1x64x1x1
  shapeCasts_S1x64x1x1_S64x1x1 : S1x64x1x1.ShapeCasts S64x1x1
  reduces_S64x128x128_S128x128 : S64x128x128.Reduces [0] S128x128
  slices_S256x5_o0_1_S256x1 : S256x5.Slices ![0, 1] S256x1
  slices_S5x64x1x1_o1_0_0_0_S1x64x1x1 : S5x64x1x1.Slices ![1, 0, 0, 0] S1x64x1x1
  slices_S256x5_o0_2_S256x1 : S256x5.Slices ![0, 2] S256x1
  slices_S5x64x1x1_o2_0_0_0_S1x64x1x1 : S5x64x1x1.Slices ![2, 0, 0, 0] S1x64x1x1
  slices_S256x5_o0_3_S256x1 : S256x5.Slices ![0, 3] S256x1
  slices_S5x64x1x1_o3_0_0_0_S1x64x1x1 : S5x64x1x1.Slices ![3, 0, 0, 0] S1x64x1x1
  slices_S256x5_o0_4_S256x1 : S256x5.Slices ![0, 4] S256x1
  slices_S5x64x1x1_o4_0_0_0_S1x64x1x1 : S5x64x1x1.Slices ![4, 0, 0, 0] S1x64x1x1
  reduces_S128x128_S128 : S128x128.Reduces [1] S128
  shapeCasts_S128_S128x1 : S128.ShapeCasts S128x1
  broadcasts_S128x1_S128x128 : S128x1.Broadcasts S128x128
  shapeCasts_S128x256_S1x128x256 : S128x256.ShapeCasts S1x128x256
  dot_S128x256_S128x256_S128x128_1_1_0_0_n_n_wf : DotDims.WF S128x256 S128x256 S128x128 [1] [1] [0] [0] [] []
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S32x128x256.size a
  hwx0_0 : ∀ i : grid0.Coords, EltTy.bits .f32 = 32 ∨ (Rect.block (s := S32x128x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S32x128x128.size a
  hwx0_1 : ∀ i : grid0.Coords, EltTy.bits .i32 = 32 ∨ (Rect.block (s := S32x128x128) S1x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S32x128x128.size a
  hwx0_2 : ∀ i : grid0.Coords, EltTy.bits .f32 = 32 ∨ (Rect.block (s := S32x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x5.size a ≤ S256x5.size a
  hwx0_3 : ∀ i : grid0.Coords, EltTy.bits .f32 = 32 ∨ (Rect.block (s := S256x5) S256x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x64x1x1.size a ≤ S5x64x1x1.size a
  hwx0_4 : ∀ i : grid0.Coords, EltTy.bits .f32 = 32 ∨ (Rect.block (s := S5x64x1x1) S5x64x1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1x1.size a ≤ S64x1x1.size a
  hwx0_5 : ∀ i : grid0.Coords, EltTy.bits .f32 = 32 ∨ (Rect.block (s := S64x1x1) S64x1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1x1.size a ≤ S64x1x1.size a
  hwx0_6 : ∀ i : grid0.Coords, EltTy.bits .f32 = 32 ∨ (Rect.block (s := S64x1x1) S64x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x256.size a ≤ S32x128x256.size a
  hwx0_7 : ∀ i : grid0.Coords, EltTy.bits .f32 = 32 ∨ (Rect.block (s := S32x128x256) S1x128x256.size (cc0_transform_7 i) (hinb0_7 i)).WholeWords (EltTy.packing .f32)

variable [Facts₀]

def dot_S128x256_S128x256_S128x128_1_1_0_0_n_n : DotDims S128x256 S128x256 S128x128 where
  lhsContracting := [1]
  rhsContracting := [1]
  lhsNonContracting := [0]
  rhsNonContracting := [0]
  lhsBatch := []
  rhsBatch := []
  wf := dot_S128x256_S128x256_S128x128_1_1_0_0_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5x64x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x128x256 : Shape := ⟨3, ![32, 128, 256]⟩
abbrev S32x128x128 : Shape := ⟨3, ![32, 128, 128]⟩
abbrev S256x5 : Shape := ⟨2, ![256, 5]⟩
abbrev S64x5 : Shape := ⟨2, ![64, 5]⟩
abbrev S64 : Shape := ⟨1, ![64]⟩
abbrev S32x128 : Shape := ⟨2, ![32, 128]⟩
abbrev S32x128x1x256 : Shape := ⟨4, ![32, 128, 1, 256]⟩
abbrev S32x1x128x256 : Shape := ⟨4, ![32, 1, 128, 256]⟩
abbrev S32x128x128x256 : Shape := ⟨4, ![32, 128, 128, 256]⟩
abbrev S32x128x128x1 : Shape := ⟨4, ![32, 128, 128, 1]⟩
abbrev S1x1x1x64 : Shape := ⟨4, ![1, 1, 1, 64]⟩
abbrev S32x128x128x64 : Shape := ⟨4, ![32, 128, 128, 64]⟩
abbrev S32x128x128x5 : Shape := ⟨4, ![32, 128, 128, 5]⟩
abbrev S_ : Shape := ⟨0, ![]⟩
abbrev S32x128x128x1x1 : Shape := ⟨5, ![32, 128, 128, 1, 1]⟩
abbrev S1 : Shape := ⟨1, ![1]⟩
abbrev S1x1x1x1x1 : Shape := ⟨5, ![1, 1, 1, 1, 1]⟩
abbrev S32x128x1 : Shape := ⟨3, ![32, 128, 1]⟩

abbrev nBuf : Space → Nat
  | .hbm => 93
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S32x128x128, .f32⟩
  | .hbm, ⟨2, _⟩ => ⟨S256x5, .f32⟩
  | .hbm, ⟨3, _⟩ => ⟨S64x5, .f32⟩
  | .hbm, ⟨4, _⟩ => ⟨S64, .f32⟩
  | .hbm, ⟨5, _⟩ => ⟨S64, .f32⟩
  | .hbm, ⟨6, _⟩ => ⟨S32x128x128, .i32⟩
  | .hbm, ⟨7, _⟩ => ⟨S32x128, .i32⟩
  | .hbm, ⟨8, _⟩ => ⟨S32x128, .i32⟩
  | .hbm, ⟨9, _⟩ => ⟨S32x128x1x256, .f32⟩
  | .hbm, ⟨10, _⟩ => ⟨S32x1x128x256, .f32⟩
  | .hbm, ⟨11, _⟩ => ⟨S32x128x128x256, .f32⟩
  | .hbm, ⟨12, _⟩ => ⟨S32x128x128x256, .f32⟩
  | .hbm, ⟨13, _⟩ => ⟨S32x128x128x256, .f32⟩
  | .hbm, ⟨14, _⟩ => ⟨S32x128x128x1, .f32⟩
  | .hbm, ⟨15, _⟩ => ⟨S1x1x1x64, .f32⟩
  | .hbm, ⟨16, _⟩ => ⟨S32x128x128x64, .f32⟩
  | .hbm, ⟨17, _⟩ => ⟨S32x128x128x64, .f32⟩
  | .hbm, ⟨18, _⟩ => ⟨S32x128x128x64, .f32⟩
  | .hbm, ⟨19, _⟩ => ⟨S1x1x1x64, .f32⟩
  | .hbm, ⟨20, _⟩ => ⟨S32x128x128x64, .f32⟩
  | .hbm, ⟨21, _⟩ => ⟨S32x128x128x64, .f32⟩
  | .hbm, ⟨22, _⟩ => ⟨S32x128x128x64, .f32⟩
  | .hbm, ⟨23, _⟩ => ⟨S32x128x128x5, .f32⟩
  | .hbm, ⟨24, _⟩ => ⟨S32x128x128x5, .f32⟩
  | .hbm, ⟨25, _⟩ => ⟨S32x128x128x5, .f32⟩
  | .hbm, ⟨26, _⟩ => ⟨S_, .f32⟩
  | .hbm, ⟨27, _⟩ => ⟨S32x128x128x5, .f32⟩
  | .hbm, ⟨28, _⟩ => ⟨S32x128x128x5, .i1⟩
  | .hbm, ⟨29, _⟩ => ⟨S_, .f32⟩
  | .hbm, ⟨30, _⟩ => ⟨S32x128x128x5, .f32⟩
  | .hbm, ⟨31, _⟩ => ⟨S32x128x128x5, .f32⟩
  | .hbm, ⟨32, _⟩ => ⟨S32x128x128x5, .f32⟩
  | .hbm, ⟨33, _⟩ => ⟨S_, .i32⟩
  | .hbm, ⟨34, _⟩ => ⟨S32x128x128, .i32⟩
  | .hbm, ⟨35, _⟩ => ⟨S32x128x128, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S32x128x128, .i32⟩
  | .hbm, ⟨40, _⟩ => ⟨S32x128x128, .i32⟩
  | .hbm, ⟨41, _⟩ => ⟨S_, .i32⟩
  | .hbm, ⟨42, _⟩ => ⟨S32x128x128, .i32⟩
  | .hbm, ⟨43, _⟩ => ⟨S32x128x128, .i32⟩
  | .hbm, ⟨44, _⟩ => ⟨S32x128x128x1, .i32⟩
  | .hbm, ⟨45, _⟩ => ⟨S_, .i32⟩
  | .hbm, ⟨46, _⟩ => ⟨S32x128x128x1, .i32⟩
  | .hbm, ⟨47, _⟩ => ⟨S32x128x128x1, .i1⟩
  | .hbm, ⟨48, _⟩ => ⟨S_, .i32⟩
  | .hbm, ⟨49, _⟩ => ⟨S32x128x128x1, .i32⟩
  | .hbm, ⟨50, _⟩ => ⟨S32x128x128x1, .i32⟩
  | .hbm, ⟨51, _⟩ => ⟨S32x128x128x1, .i32⟩
  | .hbm, ⟨52, _⟩ => ⟨S32x128x128x1x1, .i32⟩
  | .hbm, ⟨53, _⟩ => ⟨S1, .i32⟩
  | .hbm, ⟨54, _⟩ => ⟨S_, .i32⟩
  | .hbm, ⟨55, _⟩ => ⟨S32x128x128x1x1, .i32⟩
  | .hbm, ⟨56, _⟩ => ⟨S32x128x128x1x1, .i1⟩
  | .hbm, ⟨57, _⟩ => ⟨S1x1x1x1x1, .i32⟩
  | .hbm, ⟨58, _⟩ => ⟨S32x128x128x1x1, .i32⟩
  | .hbm, ⟨59, _⟩ => ⟨S32x128x128x1x1, .i1⟩
  | .hbm, ⟨60, _⟩ => ⟨S32x128x128x1x1, .i1⟩
  | .hbm, ⟨61, _⟩ => ⟨S_, .i1⟩
  | .hbm, ⟨62, _⟩ => ⟨S32x128x128x1, .i1⟩
  | .hbm, ⟨63, _⟩ => ⟨S32x128x128x1, .f32⟩
  | .hbm, ⟨64, _⟩ => ⟨S_, .f32⟩
  | .hbm, ⟨65, _⟩ => ⟨S32x128x128x1, .f32⟩
  | .hbm, ⟨66, _⟩ => ⟨S32x128x128x1, .f32⟩
  | .hbm, ⟨67, _⟩ => ⟨S32x128x128, .f32⟩
  | .hbm, ⟨68, _⟩ => ⟨S_, .i32⟩
  | .hbm, ⟨69, _⟩ => ⟨S32x128x128, .i32⟩
  | .hbm, ⟨70, _⟩ => ⟨S32x128x128, .i1⟩
  | .hbm, ⟨71, _⟩ => ⟨S_, .i32⟩
  | .hbm, ⟨72, _⟩ => ⟨S32x128x128, .i32⟩
  | .hbm, ⟨73, _⟩ => ⟨S32x128x128, .i1⟩
  | .hbm, ⟨74, _⟩ => ⟨S32x128x128, .i1⟩
  | .hbm, ⟨75, _⟩ => ⟨S_, .f32⟩
  | .hbm, ⟨76, _⟩ => ⟨S32x128x128, .f32⟩
  | .hbm, ⟨77, _⟩ => ⟨S32x128x128, .f32⟩
  | .hbm, ⟨78, _⟩ => ⟨S_, .f32⟩
  | .hbm, ⟨79, _⟩ => ⟨S32x128, .f32⟩
  | .hbm, ⟨80, _⟩ => ⟨S_, .f32⟩
  | .hbm, ⟨81, _⟩ => ⟨S32x128, .f32⟩
  | .hbm, ⟨82, _⟩ => ⟨S32x128, .f32⟩
  | .hbm, ⟨83, _⟩ => ⟨S32x128x1, .f32⟩
  | .hbm, ⟨84, _⟩ => ⟨S32x128x128, .f32⟩
  | .hbm, ⟨85, _⟩ => ⟨S32x128x128, .f32⟩
  | .hbm, ⟨86, _⟩ => ⟨S32x128x128, .f32⟩
  | .hbm, ⟨87, _⟩ => ⟨S_, .f32⟩
  | .hbm, ⟨88, _⟩ => ⟨S32x128, .f32⟩
  | .hbm, ⟨89, _⟩ => ⟨S32x128x1, .f32⟩
  | .hbm, ⟨90, _⟩ => ⟨S32x128x128, .f32⟩
  | .hbm, ⟨91, _⟩ => ⟨S32x128x128, .f32⟩
  | .hbm, ⟨92, _⟩ => ⟨S32x128x256, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v24 : Ref sig .tc := ⟨.hbm, 43, rfl⟩
abbrev main_v25 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v26 : Ref sig .tc := ⟨.hbm, 66, rfl⟩
abbrev main_v27 : Ref sig .tc := ⟨.hbm, 67, rfl⟩
abbrev main_c_3 : Ref sig .tc := ⟨.hbm, 68, rfl⟩
abbrev main_v28 : Ref sig .tc := ⟨.hbm, 69, rfl⟩
abbrev main_v29 : Ref sig .tc := ⟨.hbm, 70, rfl⟩
abbrev main_c_4 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_5 : Ref sig .tc := ⟨.hbm, 75, rfl⟩
abbrev main_call3_v0 : Ref sig .tc := ⟨.hbm, 76, rfl⟩
abbrev main_v33 : Ref sig .tc := ⟨.hbm, 77, rfl⟩
abbrev main_cst_6 : Ref sig .tc := ⟨.hbm, 78, rfl⟩
abbrev main_v34 : Ref sig .tc := ⟨.hbm, 79, rfl⟩
abbrev main_cst_7 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_8 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩

abbrev nD : Nat := 1
abbrev τ : Topo := Topo.v7x

variable {F : FTy → Type} [FloatOps F]

class Facts₀ : Prop where
  bcast_S32x128x256_S32x128x1x256_0_1_3 : S32x128x256.BroadcastsInDim S32x128x1x256 (![0, 1, 3] : Fin 3 → Fin S32x128x1x256.rank)
  bcast_S32x128x256_S32x1x128x256_0_2_3 : S32x128x256.BroadcastsInDim S32x1x128x256 (![0, 2, 3] : Fin 3 → Fin S32x1x128x256.rank)
  bcast_S32x128x1x256_S32x128x128x256_0_1_2_3 : S32x128x1x256.BroadcastsInDim S32x128x128x256 (![0, 1, 2, 3] : Fin 4 → Fin S32x128x128x256.rank)
  bcast_S32x1x128x256_S32x128x128x256_0_1_2_3 : S32x1x128x256.BroadcastsInDim S32x128x128x256 (![0, 1, 2, 3] : Fin 4 → Fin S32x128x128x256.rank)
  bcast_S32x128x128_S32x128x128x1_0_1_2 : S32x128x128.BroadcastsInDim S32x128x128x1 (![0, 1, 2] : Fin 3 → Fin S32x128x128x1.rank)
  bcast_S64_S1x1x1x64_3 : S64.BroadcastsInDim S1x1x1x64 (![3] : Fin 1 → Fin S1x1x1x64.rank)
  bcast_S32x128x128x1_S32x128x128x64_0_1_2_3 : S32x128x128x1.BroadcastsInDim S32x128x128x64 (![0, 1, 2, 3] : Fin 4 → Fin S32x128x128x64.rank)
  bcast_S1x1x1x64_S32x128x128x64_0_1_2_3 : S1x1x1x64.BroadcastsInDim S32x128x128x64 (![0, 1, 2, 3] : Fin 4 → Fin S32x128x128x64.rank)
  bcast_S_S32x128x128x5 : S_.BroadcastsInDim S32x128x128x5 (![] : Fin 0 → Fin S32x128x128x5.rank)
  bcast_S_S32x128x128 : S_.BroadcastsInDim S32x128x128 (![] : Fin 0 → Fin S32x128x128.rank)
  bcast_S_S32x128x128x1 : S_.BroadcastsInDim S32x128x128x1 (![] : Fin 0 → Fin S32x128x128x1.rank)
  shapeCasts_S32x128x128x1_S32x128x128x1x1 : S32x128x128x1.ShapeCasts S32x128x128x1x1
  bcast_S_S32x128x128x1x1 : S_.BroadcastsInDim S32x128x128x1x1 (![] : Fin 0 → Fin S32x128x128x1x1.rank)
  bcast_S1_S1x1x1x1x1_4 : S1.BroadcastsInDim S1x1x1x1x1 (![4] : Fin 1 → Fin S1x1x1x1x1.rank)
  bcast_S1x1x1x1x1_S32x128x128x1x1_0_1_2_3_4 : S1x1x1x1x1.BroadcastsInDim S32x128x128x1x1 (![0, 1, 2, 3, 4] : Fin 5 → Fin S32x128x128x1x1.rank)
  reducesTo_S32x128x128x1x1_S32x128x128x1_d4 : S32x128x128x1x1.ReducesTo [4] S32x128x128x1
  h_S_ : 0 < S_.numel
  shapeCasts_S32x128x128x1_S32x128x128 : S32x128x128x1.ShapeCasts S32x128x128
  reducesTo_S32x128x128_S32x128_d2 : S32x128x128.ReducesTo [2] S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32x128x1_S32x128x128_0_1_2 : S32x128x1.BroadcastsInDim S32x128x128 (![0, 1, 2] : Fin 3 → Fin S32x128x128.rank)
  dot_S32x128x128x256_S256x5_S32x128x128x5_3_0_012_1_n_n_wf : DotDims.WF S32x128x128x256 S256x5 S32x128x128x5 [3] [0] [0, 1, 2] [1] [] []
  dot_S32x128x128x64_S64x5_S32x128x128x5_3_0_012_1_n_n_wf : DotDims.WF S32x128x128x64 S64x5 S32x128x128x5 [3] [0] [0, 1, 2] [1] [] []
  gather_S32x128x128x5_S32x128x128x1x1_S32x128x128x1_n_3_012_012_3_4_1111_wf : GatherDims.WF S32x128x128x5 S32x128x128x1x1 S32x128x128x1 [] [3] [0, 1, 2] [3] [0, 1, 2] 4 ![1, 1, 1, 1]
  dot_S32x128x128_S32x128x256_S32x128x256_2_1_1_2_0_0_wf : DotDims.WF S32x128x128 S32x128x256 S32x128x256 [2] [1] [1] [2] [0] [0]

variable [Facts₀]

def dot_S32x128x128x256_S256x5_S32x128x128x5_3_0_012_1_n_n : DotDims S32x128x128x256 S256x5 S32x128x128x5 where
  lhsContracting := [3]
  rhsContracting := [0]
  lhsNonContracting := [0, 1, 2]
  rhsNonContracting := [1]
  lhsBatch := []
  rhsBatch := []
  wf := dot_S32x128x128x256_S256x5_S32x128x128x5_3_0_012_1_n_n_wf
def dot_S32x128x128x64_S64x5_S32x128x128x5_3_0_012_1_n_n : DotDims S32x128x128x64 S64x5 S32x128x128x5 where
  lhsContracting := [3]
  rhsContracting := [0]
  lhsNonContracting := [0, 1, 2]
  rhsNonContracting := [1]
  lhsBatch := []
  rhsBatch := []
  wf := dot_S32x128x128x64_S64x5_S32x128x128x5_3_0_012_1_n_n_wf
def gather_S32x128x128x5_S32x128x128x1x1_S32x128x128x1_n_3_012_012_3_4_1111 : GatherDims S32x128x128x5 S32x128x128x1x1 S32x128x128x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S32x128x128x5_S32x128x128x1x1_S32x128x128x1_n_3_012_012_3_4_1111_wf
def dot_S32x128x128_S32x128x256_S32x128x256_2_1_1_2_0_0 : DotDims S32x128x128 S32x128x256 S32x128x256 where
  lhsContracting := [2]
  rhsContracting := [1]
  lhsNonContracting := [1]
  rhsNonContracting := [2]
  lhsBatch := [0]
  rhsBatch := [0]
  wf := dot_S32x128x128_S32x128x256_S32x128x256_2_1_1_2_0_0_wf

class Facts : Prop extends Facts₀ where

variable [Facts]
-- ==== Proof.Spec.lean ====
/-
  Relation-typed graph attention on one batch of 128 nodes, as a function of entrywise accessors.

  For nodes i, j with features h i, h j in R^256, an integer edge type a i j, an interval v i j, five relation
  vectors ap · r in R^256, five interval weightings iw · r in R^64 and a cosine time code (frequency fr t, phase ph t):
    score r i j  = leaky ( Σ_d (h i d · ap d r) · h j d  +  Σ_t cos (fr t · v i j + ph t) · iw t r )
    logit i j    = score (clip (a i j − 1, 0, 4)) i j   when 1 ≤ a i j ≤ 5,   the literal −9e15 otherwise
    weight i j   = exp (logit i j − max_j' logit i j') / Σ_j' exp (logit i j' − max_j'' logit i j'')
    out i d      = Σ_j weight i j · h j d
  over the extended reals. The clipped relation word is always one of 0, 1, 2, 3, 4 (`relWord_cases`), so choosing
  the score by a chain of five equality tests and choosing it by position are the same (`pick_eq`).
-/
import Idealize.ShloMosaic.PureOps.Ideal
import Idealize.ShloMosaic.Lib.ValueIdx

noncomputable section

namespace Cert.RelAttn

open Idealize.ShloMosaic

/-- The leaky rectifier with slope f32(0.2): x when 0 ≤ x, slope · x otherwise. -/
def leaky (x : EReal) : EReal :=
  Scalar.select (Ideal.cmp .oge x (Ideal.ofBits .f32 0x00000000#32)) x (Ideal.ofBits .f32 0x3E4CCCCD#32 * x)

/-- The relation word of an edge type: a − 1 clipped into [0, 4], on signed 32-bit words. -/
def relWord (a : BitVec 32) : BitVec 32 := IntOp.minsi 4#32 (IntOp.maxsi 0#32 (IntOp.subi a 1#32))

/-- The bit "the edge type is one of 1, …, 5". -/
def isEdge (a : BitVec 32) : BitVec 1 := IntOp.andi (IntOp.cmpi .sge a 1#32) (IntOp.cmpi .sle a 5#32)

/-- A signed word between 0 and 4 is one of the five words 0, …, 4. -/
theorem word_of_range (y : BitVec 32) (h0 : 0 ≤ y.toInt) (h4 : y.toInt ≤ 4) :
    y = 0#32 ∨ y = 1#32 ∨ y = 2#32 ∨ y = 3#32 ∨ y = 4#32 := by
  have e := BitVec.toInt_eq_toNat_cond y
  have hlt := y.isLt
  have hn : y.toNat = 0 ∨ y.toNat = 1 ∨ y.toNat = 2 ∨ y.toNat = 3 ∨ y.toNat = 4 := by omega
  rcases hn with h | h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (Or.inl (BitVec.eq_of_toNat_eq h))))
  · exact Or.inr (Or.inr (Or.inr (Or.inr (BitVec.eq_of_toNat_eq h))))

/-- Clipping into [0, 4] lands on one of the five words 0, …, 4, whatever the edge type. -/
theorem relWord_cases (a : BitVec 32) :
    relWord a = 0#32 ∨ relWord a = 1#32 ∨ relWord a = 2#32 ∨ relWord a = 3#32 ∨ relWord a = 4#32 := by
  unfold relWord
  generalize IntOp.subi a 1#32 = z
  apply word_of_range
  · unfold IntOp.minsi IntOp.maxsi
    by_cases h1 : z.slt 0#32 = true
    · rw [if_pos h1]; split <;> decide
    · rw [if_neg h1]
      have hz : 0 ≤ z.toInt := by
        have : ¬ z.toInt < (0#32 : BitVec 32).toInt := fun h => h1 (BitVec.slt_iff_toInt_lt.2 h)
        have e0 : (0#32 : BitVec 32).toInt = 0 := by decide
        omega
      split
      · decide
      · exact hz
  · unfold IntOp.minsi
    split
    · decide
    · rename_i h2
      have : ¬ (4#32 : BitVec 32).toInt < (IntOp.maxsi 0#32 z).toInt := fun h => h2 (BitVec.slt_iff_toInt_lt.2 h)
      have e4 : (4#32 : BitVec 32).toInt = 4 := by decide
      omega

section

variable (hb : Fin 128 → Fin 256 → EReal) (ad : Fin 128 → Fin 128 → BitVec 32) (av : Fin 128 → Fin 128 → EReal)
  (ap : Fin 256 → Fin 5 → EReal) (iw : Fin 64 → Fin 5 → EReal) (fr ph : Fin 64 → EReal)

/-- Relation r's raw score on the edge (i, j): the relation-weighted inner product of the two nodes' features plus the
    relation-weighted cosine code of the edge's interval. -/
def pre (r : Fin 5) (i j : Fin 128) : EReal :=
  (∑ d : Fin 256, hb i d * ap d r * hb j d) + ∑ t : Fin 64, Ideal.cos (fr t * av i j + ph t) * iw t r

/-- Relation r's score on the edge (i, j): the raw score through the leaky rectifier. -/
def score (r : Fin 5) (i j : Fin 128) : EReal := leaky (pre hb av ap iw fr ph r i j)

/-- One of five values chosen by five equality tests on a word, the last test that holds winning; zero when none holds. -/
def pick (k : BitVec 32) (f : Fin 5 → EReal) : EReal :=
  Scalar.select (IntOp.cmpi .eq k 4#32) (f 4)
    (Scalar.select (IntOp.cmpi .eq k 3#32) (f 3)
      (Scalar.select (IntOp.cmpi .eq k 2#32) (f 2)
        (Scalar.select (IntOp.cmpi .eq k 1#32) (f 1)
          (Scalar.select (IntOp.cmpi .eq k 0#32) (f 0) (Ideal.ofBits .f32 0x00000000#32)))))

/-- The position a signed word names in a table of five, clamped to the table: min (k, 4) for k ≥ 0. -/
def relPos (k : BitVec 32) : Fin 5 := ⟨min k.toInt.toNat 4, by omega⟩

/-- On the five words 0, …, 4 the chain of tests picks the entry at the word's position. -/
theorem pick_eq (k : BitVec 32) (hk : k = 0#32 ∨ k = 1#32 ∨ k = 2#32 ∨ k = 3#32 ∨ k = 4#32) (f : Fin 5 → EReal) :
    pick k f = f (relPos k) := by
  rcases hk with rfl | rfl | rfl | rfl | rfl <;> rfl

/-- The attention logit of the edge (i, j): its relation's score on a typed edge, the literal −9e15 on an untyped one. -/
def logit (i j : Fin 128) : EReal :=
  Scalar.select (isEdge (ad i j)) (pick (relWord (ad i j)) fun r => score hb av ap iw fr ph r i j) (Ideal.ofBits .f32 0xD9FFCB9E#32)

/-- Row i's largest logit (the fold of max from −∞ over the row). -/
def rowMax (i : Fin 128) : EReal :=
  (Finset.univ : Finset (Fin 128)).fold max (Ideal.ofBits .f32 0xFF800000#32) fun j => logit hb ad av ap iw fr ph i j

/-- The shifted exponential of a logit. -/
def expo (i j : Fin 128) : EReal := Ideal.exp (logit hb ad av ap iw fr ph i j - rowMax hb ad av ap iw fr ph i)

/-- The softmax weight of the edge (i, j) within row i. -/
def weight (i j : Fin 128) : EReal :=
  Ideal.div (expo hb ad av ap iw fr ph i j) (∑ j' : Fin 128, expo hb ad av ap iw fr ph i j')

/-- Node i's output feature d: the weighted sum of the row's neighbours' features. -/
def out (i : Fin 128) (d : Fin 256) : EReal := ∑ j : Fin 128, weight hb ad av ap iw fr ph i j * hb j d

end

/-! ## The layer on all 32 batches -/

section
open Idealize.ShloMosaic.ValueIdx

variable (h : (⟨3, ![32, 128, 256]⟩ : Shape).Idx → EReal) (A : (⟨3, ![32, 128, 128]⟩ : Shape).Idx → EReal)
  (ap : (⟨2, ![256, 5]⟩ : Shape).Idx → EReal) (iw : (⟨2, ![64, 5]⟩ : Shape).Idx → EReal)
  (fr ph : (⟨1, ![64]⟩ : Shape).Idx → EReal) (adj : (⟨3, ![32, 128, 128]⟩ : Shape).Idx → BitVec 32)

/-- Batch b's attention output at node i, feature d: the one-batch function of batch b's slices of the features, the edge
    types and the intervals, and of the shared tables. -/
def layer (b : Fin 32) (i : Fin 128) (d : Fin 256) : EReal :=
  out (fun i d => h (ix3 b i d)) (fun i j => adj (ix3 b i j)) (fun i j => A (ix3 b i j)) (fun d r => ap (ix2 d r))
    (fun t r => iw (ix2 t r)) (fun t => fr (ix1 t)) (fun t => ph (ix1 t)) i d

/-- The layer's output as a 32 x 128 x 256 array. -/
def layerArr : (⟨3, ![32, 128, 256]⟩ : Shape).Idx → EReal :=
  fun y => layer h A ap iw fr ph adj ⟨(y 0).val, (y 0).isLt⟩ ⟨(y 1).val, (y 1).isLt⟩ ⟨(y 2).val, (y 2).isLt⟩

theorem layerArr_ix3 (b : Fin 32) (i : Fin 128) (d : Fin 256) :
    layerArr h A ap iw fr ph adj (ix3 b i d) = layer h A ap iw fr ph adj b i d := rfl

end

end Cert.RelAttn

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KernelBody.lean ====
/-
  The kernel's body, read entry by entry.

  One grid point holds one batch: a 128 x 256 block h of node features, a 128 x 128 block a of edge types, a 128 x 128
  block v of intervals, and the whole tables ap (256 x 5), iw (laid out 5 x 64 x 1 x 1), fr and ph (64 x 1 x 1).
  The body forms the cosine code cos (fr t · v i j + ph t) on a 64 x 128 x 128 array, and for each of the five relations r
  the matrix (h ∘ ap · r) hᵀ plus the code summed against iw r ·, sends it through the leaky rectifier, keeps for each edge
  the relation its clipped type names (five equality tests), masks untyped edges, takes a row softmax and multiplies by h.
  Every step is pointwise, a re-laying of a small array, a sum along one axis, a maximum along one axis, or a product of two
  matrices; this module reads each of these at an index and puts them together:
  the stored block at (0, i, d) is `RelAttn.out` of the blocks' entries at (i, d).
-/
import proofs.«407681_j52836687675884_3_alg».proof.Proof.Gen.KernelIdeal.Skeleton
import proofs.«407681_j52836687675884_3_alg».proof.Proof.Spec
import proofs.«407681_j52836687675884_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## Re-layings of small arrays read at an index (the forms the library does not state) -/

section Layout
variable {α : Type}

/-- An a x 1 column cast to a length-a vector reads, at i, the column's entry in row i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A rank-4 table cut along its first axis at o, one slab thick, reads the table's slab o. -/
theorem slice4_axis0_apply {n0 n1 n2 n3 : ℕ} (o : ℕ) (X : (⟨4, ![n0, n1, n2, n3]⟩ : Shape).Idx → α)
    (h : (⟨4, ![n0, n1, n2, n3]⟩ : Shape).Slices ![o, 0, 0, 0] ⟨4, ![1, n1, n2, n3]⟩)
    (u : Fin 1) (b : Fin n1) (c : Fin n2) (e : Fin n3) (k : Fin n0) (hk : k.val = o) :
    extractStridedSlice ⟨4, ![1, n1, n2, n3]⟩ ![o, 0, 0, 0] X h (ix4 u b c e) = X (ix4 k b c e) :=
  extractStridedSlice_apply _ _ _ _ _ (fun ax => by
    match ax with
    | ⟨0, _⟩ =>
      have hu : u.val = 0 := by omega
      show k.val = o + u.val
      omega
    | ⟨1, _⟩ => exact (Nat.zero_add _).symm
    | ⟨2, _⟩ => exact (Nat.zero_add _).symm
    | ⟨3, _⟩ => exact (Nat.zero_add _).symm)

/-- An a x 1 x 1 array broadcast to a x b x c reads, at (t, i, j), its entry t. -/
theorem broadcastTo_a11_abc_apply {a b c : ℕ} (v : (⟨3, ![a, 1, 1]⟩ : Shape).Idx → α)
    (h : (⟨3, ![a, 1, 1]⟩ : Shape).Broadcasts ⟨3, ![a, b, c]⟩) (t : Fin a) (i : Fin b) (j : Fin c) :
    broadcastTo ⟨3, ![a, b, c]⟩ v h (ix3 t i j) = v (ix3 t (0 : Fin 1) (0 : Fin 1)) := by
  refine broadcastTo_apply v h (ix3 t i j) (ix3 t (0 : Fin 1) (0 : Fin 1)) fun ax => ?_
  match ax with
  | ⟨0, _⟩ =>
    show t.val = if a = 1 then 0 else t.val
    split
    · have := t.isLt; omega
    · rfl
  | ⟨1, _⟩ => rfl
  | ⟨2, _⟩ => rfl

/-- A 1 x b x c array broadcast to a x b x c reads, at (t, i, j), its entry (i, j). -/
theorem broadcastTo_1bc_abc_apply {a b c : ℕ} (v : (⟨3, ![1, b, c]⟩ : Shape).Idx → α)
    (h : (⟨3, ![1, b, c]⟩ : Shape).Broadcasts ⟨3, ![a, b, c]⟩) (t : Fin a) (i : Fin b) (j : Fin c) :
    broadcastTo ⟨3, ![a, b, c]⟩ v h (ix3 t i j) = v (ix3 (0 : Fin 1) i j) := by
  refine broadcastTo_apply v h (ix3 t i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Layout

/-! ## The two matrix products at an index -/

theorem lhs_nt_0 (j : S128x128.Idx) (q : dot_S128x256_S128x256_S128x128_1_1_0_0_n_n.contr.Idx) :
    (dot_S128x256_S128x256_S128x128_1_1_0_0_n_n.lhsIdx j q 0).val = (j 0).val := by
  unfold DotDims.lhsIdx
  rw [dif_neg (show ¬(0 : Fin S128x256.rank) ∈ dot_S128x256_S128x256_S128x128_1_1_0_0_n_n.lhsBatch by decide), dif_pos (show (0 : Fin S128x256.rank) ∈ dot_S128x256_S128x256_S128x128_1_1_0_0_n_n.lhsNonContracting by decide)]
  rfl
theorem lhs_nt_1 (j : S128x128.Idx) (q : dot_S128x256_S128x256_S128x128_1_1_0_0_n_n.contr.Idx) :
    (dot_S128x256_S128x256_S128x128_1_1_0_0_n_n.lhsIdx j q 1).val = (q ⟨0, by decide⟩).val :=
  dot_S128x256_S128x256_S128x128_1_1_0_0_n_n.lhsIdx_val_of_single rfl j q
theorem rhs_nt_0 (j : S128x128.Idx) (q : dot_S128x256_S128x256_S128x128_1_1_0_0_n_n.contr.Idx) :
    (dot_S128x256_S128x256_S128x128_1_1_0_0_n_n.rhsIdx j q 0).val = (j 1).val := by
  unfold DotDims.rhsIdx
  rw [dif_neg (show ¬(0 : Fin S128x256.rank) ∈ dot_S128x256_S128x256_S128x128_1_1_0_0_n_n.rhsBatch by decide), dif_pos (show (0 : Fin S128x256.rank) ∈ dot_S128x256_S128x256_S128x128_1_1_0_0_n_n.rhsNonContracting by decide)]
  rfl
theorem rhs_nt_1 (j : S128x128.Idx) (q : dot_S128x256_S128x256_S128x128_1_1_0_0_n_n.contr.Idx) :
    (dot_S128x256_S128x256_S128x128_1_1_0_0_n_n.rhsIdx j q 1).val = (q ⟨0, by decide⟩).val :=
  dot_S128x256_S128x256_S128x128_1_1_0_0_n_n.rhsIdx_val_of_single rfl j q

/-- A · Bᵀ into a zero accumulator: entry (i, j) is the sum over d of A (i, d) · B (j, d). -/
theorem matmul_nt_apply (A : FVec Ideal S128x256 .bf16) (B : FVec Ideal S128x256 .bf16) (i j : Fin 128) :
    matmul dot_S128x256_S128x256_S128x128_1_1_0_0_n_n none A B (constant S128x128 .f32 0x00000000#32) (ix2 i j)
      = ∑ d : Fin 256, A (ix2 i d) * B (ix2 j d) := by
  simp only [matmul]
  rw [Ideal.matmul_constant_zero_apply, ← Equiv.sum_comp (ValueIdx.contrEquiv1 dot_S128x256_S128x256_S128x128_1_1_0_0_n_n 256 rfl rfl).symm]
  refine Finset.sum_congr rfl fun k _ => ?_
  have hk := ValueIdx.contrEquiv1_symm_val dot_S128x256_S128x256_S128x128_1_1_0_0_n_n 256 rfl rfl k
  have el : dot_S128x256_S128x256_S128x128_1_1_0_0_n_n.lhsIdx (ix2 i j) ((ValueIdx.contrEquiv1 dot_S128x256_S128x256_S128x128_1_1_0_0_n_n 256 rfl rfl).symm k) = ix2 i k := funext fun a => Fin.ext (by
    match a with
    | ⟨0, _⟩ => exact lhs_nt_0 _ _
    | ⟨1, _⟩ => exact (lhs_nt_1 _ _).trans hk)
  have er : dot_S128x256_S128x256_S128x128_1_1_0_0_n_n.rhsIdx (ix2 i j) ((ValueIdx.contrEquiv1 dot_S128x256_S128x256_S128x128_1_1_0_0_n_n 256 rfl rfl).symm k) = ix2 j k := funext fun a => Fin.ext (by
    match a with
    | ⟨0, _⟩ => exact rhs_nt_0 _ _
    | ⟨1, _⟩ => exact (rhs_nt_1 _ _).trans hk)
  rw [el, er]

theorem lhs_nn_0 (j : S128x256.Idx) (q : dot_S128x128_S128x256_S128x256_1_0_0_1_n_n.contr.Idx) :
    (dot_S128x128_S128x256_S128x256_1_0_0_1_n_n.lhsIdx j q 0).val = (j 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem lhs_nn_1 (j : S128x256.Idx) (q : dot_S128x128_S128x256_S128x256_1_0_0_1_n_n.contr.Idx) :
    (dot_S128x128_S128x256_S128x256_1_0_0_1_n_n.lhsIdx j q 1).val = (q ⟨0, by decide⟩).val :=
  dot_S128x128_S128x256_S128x256_1_0_0_1_n_n.lhsIdx_val_of_single rfl j q
theorem rhs_nn_0 (j : S128x256.Idx) (q : dot_S128x128_S128x256_S128x256_1_0_0_1_n_n.contr.Idx) :
    (dot_S128x128_S128x256_S128x256_1_0_0_1_n_n.rhsIdx j q 0).val = (q ⟨0, by decide⟩).val :=
  dot_S128x128_S128x256_S128x256_1_0_0_1_n_n.rhsIdx_val_of_single rfl j q
theorem rhs_nn_1 (j : S128x256.Idx) (q : dot_S128x128_S128x256_S128x256_1_0_0_1_n_n.contr.Idx) :
    (dot_S128x128_S128x256_S128x256_1_0_0_1_n_n.rhsIdx j q 1).val = (j 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- A · B into a zero accumulator: entry (i, d) is the sum over j of A (i, j) · B (j, d). -/
theorem matmul_nn_apply (A : FVec Ideal S128x128 .bf16) (B : FVec Ideal S128x256 .bf16) (i : Fin 128) (d : Fin 256) :
    matmul dot_S128x128_S128x256_S128x256_1_0_0_1_n_n none A B (constant S128x256 .f32 0x00000000#32) (ix2 i d)
      = ∑ j : Fin 128, A (ix2 i j) * B (ix2 j d) := by
  simp only [matmul]
  rw [Ideal.matmul_constant_zero_apply, ← Equiv.sum_comp (ValueIdx.contrEquiv1 dot_S128x128_S128x256_S128x256_1_0_0_1_n_n 128 rfl rfl).symm]
  refine Finset.sum_congr rfl fun k _ => ?_
  have hk := ValueIdx.contrEquiv1_symm_val dot_S128x128_S128x256_S128x256_1_0_0_1_n_n 128 rfl rfl k
  have el : dot_S128x128_S128x256_S128x256_1_0_0_1_n_n.lhsIdx (ix2 i d) ((ValueIdx.contrEquiv1 dot_S128x128_S128x256_S128x256_1_0_0_1_n_n 128 rfl rfl).symm k) = ix2 i k := funext fun a => Fin.ext (by
    match a with
    | ⟨0, _⟩ => exact lhs_nn_0 _ _
    | ⟨1, _⟩ => exact (lhs_nn_1 _ _).trans hk)
  have er : dot_S128x128_S128x256_S128x256_1_0_0_1_n_n.rhsIdx (ix2 i d) ((ValueIdx.contrEquiv1 dot_S128x128_S128x256_S128x256_1_0_0_1_n_n 128 rfl rfl).symm k) = ix2 k d := funext fun a => Fin.ext (by
    match a with
    | ⟨0, _⟩ => exact (rhs_nn_0 _ _).trans hk
    | ⟨1, _⟩ => exact rhs_nn_1 _ _)
  rw [el, er]

/-! ## The three reductions at an index -/

/-- The sum of a 64 x 128 x 128 array along its first axis: entry (i, j) is the sum over t of the array at (t, i, j). -/
theorem sum_axis0_apply (X : FVec Ideal S64x128x128 .f32) (h : S64x128x128.Reduces [0] S128x128)
    (hφ : FKind.Formats .f32) (hacc : (0x00000000#32 : BitVec 32) = FKind.add.neutral .f32 hφ) (i j : Fin 128) :
    multiReduction .add [0] S128x128 X 0x00000000#32 h hφ hacc (ix2 i j) = ∑ t : Fin 64, X (ix3 t i j) := by
  rw [Ideal.multiReduction_add_single]
  refine Finset.sum_congr rfl fun t _ => congrArg X (funext fun a => Fin.ext ?_)
  match a with
  | ⟨0, _⟩ => rfl
  | ⟨1, _⟩ => rfl
  | ⟨2, _⟩ => rfl

/-- The sum of a 128 x 128 array along its rows: entry i is the sum over j of the array at (i, j). -/
theorem sum_axis1_apply (X : FVec Ideal S128x128 .f32) (h : S128x128.Reduces [1] S128)
    (hφ : FKind.Formats .f32) (hacc : (0x00000000#32 : BitVec 32) = FKind.add.neutral .f32 hφ) (i : Fin 128) :
    multiReduction .add [1] S128 X 0x00000000#32 h hφ hacc (ix1 i) = ∑ j : Fin 128, X (ix2 i j) := by
  rw [Ideal.multiReduction_add_single]
  refine Finset.sum_congr rfl fun t _ => congrArg X (funext fun a => Fin.ext ?_)
  match a with
  | ⟨0, _⟩ => rfl
  | ⟨1, _⟩ => rfl

/-- The maximum of a 128 x 128 array along its rows: entry i is the fold of max from −∞ over the row's entries. -/
theorem max_axis1_apply (X : FVec Ideal S128x128 .f32) (h : S128x128.Reduces [1] S128)
    (hφ : FKind.Formats .f32) (hacc : (0xFF800000#32 : BitVec 32) = FKind.maximumf.neutral .f32 hφ) (i : Fin 128) :
    multiReduction .maximumf [1] S128 X 0xFF800000#32 h hφ hacc (ix1 i)
      = (Finset.univ : Finset (Fin 128)).fold max (Ideal.ofBits .f32 0xFF800000#32) fun j => X (ix2 i j) := by
  rw [Ideal.multiReduction_maximumf_single]
  refine congrArg (fun f => (Finset.univ : Finset (Fin 128)).fold max (Ideal.ofBits .f32 0xFF800000#32) f) (funext fun t => ?_)
  refine congrArg X (funext fun a => Fin.ext ?_)
  match a with
  | ⟨0, _⟩ => rfl
  | ⟨1, _⟩ => rfl

/-! ## The body's pieces as arrays, each read at an index -/

section Pieces

variable (v1 : FVec Ideal S128x256 .f32) (v6 : Vec Ideal S256x5 .f32) (v8 : FVec Ideal S5x64x1x1 .f32)
  (v13 : FVec Ideal S128x256 .bf16) (v20 : FVec Ideal S64x128x128 .f32)

/-- Relation o's raw score matrix as the body forms it: (h ∘ column o of ap) · hᵀ, plus the code summed along its first
    axis against slab o of iw. -/
def rawVec (o : ℕ) (hs6 : S256x5.Slices ![0, o] S256x1) (hs8 : S5x64x1x1.Slices ![o, 0, 0, 0] S1x64x1x1) : FVec Ideal S128x128 .f32 :=
  addf
    (matmul dot_S128x256_S128x256_S128x128_1_1_0_0_n_n none
      (truncf .bf16 (mulf v1 (broadcastTo S128x256 (shapeCast S1x256 (shapeCast S256 (extractStridedSlice S256x1 ![0, o] v6 hs6) shapeCasts_S256x1_S256) shapeCasts_S256_S1x256) broadcasts_S1x256_S128x256)) bitsLt_bf16_f32)
      v13 (constant S128x128 .f32 0x00000000#32))
    (multiReduction .add [0] S128x128
      (mulf v20 (broadcastTo S64x128x128 (shapeCast S64x1x1 (extractStridedSlice S1x64x1x1 ![o, 0, 0, 0] v8 hs8) shapeCasts_S1x64x1x1_S64x1x1) broadcasts_S64x1x1_S64x128x128))
      0x00000000#32 reduces_S64x128x128_S128x128 (.inl rfl) rfl)

/-- Its entry (i, j): Σ_d (v1 (i, d) · v6 (d, o)) · v13 (j, d) + Σ_t v20 (t, i, j) · v8 (o, t, 0, 0). -/
theorem rawVec_apply (o : ℕ) (ho : o < 5) (hs6 : S256x5.Slices ![0, o] S256x1) (hs8 : S5x64x1x1.Slices ![o, 0, 0, 0] S1x64x1x1)
    (i j : Fin 128) :
    rawVec v1 v6 v8 v13 v20 o hs6 hs8 (ix2 i j)
      = (∑ d : Fin 256, v1 (ix2 i d) * v6 (ix2 d (⟨o, ho⟩ : Fin 5)) * v13 (ix2 j d))
        + ∑ t : Fin 64, v20 (ix3 t i j) * v8 (ix4 (⟨o, ho⟩ : Fin 5) t (0 : Fin 1) (0 : Fin 1)) := by
  unfold rawVec
  refine (congrArg₂ (· + ·) (matmul_nt_apply _ v13 i j) (sum_axis0_apply _ _ _ _ i j)).trans ?_
  congr 1
  · refine Finset.sum_congr rfl fun d _ => ?_
    show v1 (ix2 i d) * broadcastTo S128x256 _ _ (ix2 i d) * v13 (ix2 j d) = _
    rw [broadcastTo_1b_ab_apply, shapeCast_a_1a_apply, shapeCast_a1_a_apply,
      slice2_axis1_apply o v6 hs6 d (0 : Fin 1) (⟨o, ho⟩ : Fin 5) rfl]
  · refine Finset.sum_congr rfl fun t _ => ?_
    show v20 (ix3 t i j) * broadcastTo S64x128x128 _ _ (ix3 t i j) = _
    rw [broadcastTo_a11_abc_apply, shapeCast_1abc_abc_apply,
      slice4_axis0_apply o v8 hs8 (0 : Fin 1) t (0 : Fin 1) (0 : Fin 1) (⟨o, ho⟩ : Fin 5) rfl]

/-- The leaky rectifier applied entrywise, as the body spells it (a compare with a zero splat, a scaled copy, a select). -/
def leakyVec (E : FVec Ideal S128x128 .f32) : FVec Ideal S128x128 .f32 :=
  select (cmpf .oge E (broadcast S128x128 (Scalar.ofBits (F := Ideal) .f32 0x00000000#32))) E
    (mulf (broadcast S128x128 (Scalar.ofBits (F := Ideal) .f32 0x3E4CCCCD#32)) E)

theorem leakyVec_apply (E : FVec Ideal S128x128 .f32) (y : S128x128.Idx) : leakyVec E y = RelAttn.leaky (E y) := rfl

/-- One link of the chain of tests: where the relation word is o, relation o's rectified score; elsewhere what was there. -/
def branch (o : BitVec 32) (v26 : IVec S128x128 32) (E prev : FVec Ideal S128x128 .f32) : FVec Ideal S128x128 .f32 :=
  select (cmpi .eq v26 (broadcast S128x128 o)) (leakyVec E) prev

theorem branch_apply (o : BitVec 32) (v26 : IVec S128x128 32) (E prev : FVec Ideal S128x128 .f32) (y : S128x128.Idx) :
    branch o v26 E prev y = Scalar.select (IntOp.cmpi .eq (v26 y) o) (RelAttn.leaky (E y)) (prev y) := rfl

/-- The last relation's raw scores. -/
theorem pay12_eq : k0_pay12 v1 v6 v8 v13 v20
    = rawVec v1 v6 v8 v13 v20 4 slices_S256x5_o0_4_S256x1 slices_S5x64x1x1_o4_0_0_0_S1x64x1x1 := rfl

/-- The chain after relations 0 and 1. -/
theorem pay9_eq (v26 : IVec S128x128 32) (cst : Ideal .f32) : k0_pay9 v1 v6 v8 v13 v20 v26 cst
    = branch 1#32 v26 (rawVec v1 v6 v8 v13 v20 1 slices_S256x5_o0_1_S256x1 slices_S5x64x1x1_o1_0_0_0_S1x64x1x1)
        (branch 0#32 v26 (rawVec v1 v6 v8 v13 v20 0 slices_S256x5_o0_0_S256x1 slices_S5x64x1x1_o0_0_0_0_S1x64x1x1)
          (broadcast S128x128 cst)) := rfl

/-- The chain after relations 2 and 3, over what relations 0 and 1 left. -/
theorem pay11_eq (v26 : IVec S128x128 32) (v74 : FVec Ideal S128x128 .f32) :
    k0_pay11 v1 v6 v8 v13 v20 v26 v74 (k0_pay10 v1 v6) (constant S128x128 .f32 0x00000000#32)
    = branch 3#32 v26 (rawVec v1 v6 v8 v13 v20 3 slices_S256x5_o0_3_S256x1 slices_S5x64x1x1_o3_0_0_0_S1x64x1x1)
        (branch 2#32 v26 (rawVec v1 v6 v8 v13 v20 2 slices_S256x5_o0_2_S256x1 slices_S5x64x1x1_o2_0_0_0_S1x64x1x1) v74) := rfl

/-! ### The row softmax -/

variable (Lg : FVec Ideal S128x128 .f32)

/-- The logits' row maxima. -/
def rowMaxVec : FVec Ideal S128 .f32 :=
  multiReduction .maximumf [1] S128 Lg 0xFF800000#32 reduces_S128x128_S128 (.inl rfl) rfl

theorem rowMaxVec_apply (i : Fin 128) :
    rowMaxVec Lg (ix1 i) = (Finset.univ : Finset (Fin 128)).fold max (Ideal.ofBits .f32 0xFF800000#32) fun j => Lg (ix2 i j) :=
  max_axis1_apply Lg _ _ _ i

/-- The shifted exponentials: exp (logit − its row's maximum), the maxima set as a column and repeated along the row. -/
def expVec : FVec Ideal S128x128 .f32 :=
  exp (subf Lg (broadcastTo S128x128 (shapeCast S128x1 (rowMaxVec Lg) shapeCasts_S128_S128x1) broadcasts_S128x1_S128x128))

theorem expVec_apply (i j : Fin 128) :
    expVec Lg (ix2 i j)
      = Ideal.exp (Lg (ix2 i j) - (Finset.univ : Finset (Fin 128)).fold max (Ideal.ofBits .f32 0xFF800000#32) fun j' => Lg (ix2 i j')) := by
  show Ideal.exp (Lg (ix2 i j) - broadcastTo S128x128 _ _ (ix2 i j)) = _
  rw [Cert.LibColumn.broadcastTo_a1_ab_apply, Cert.LibColumn.shapeCast_a_a1_apply, rowMaxVec_apply]

/-- The softmax weights: each shifted exponential over its row's sum, the sums set as a column and repeated along the row. -/
def weightVec : FVec Ideal S128x128 .f32 :=
  divf (expVec Lg)
    (broadcastTo S128x128 (shapeCast S128x1 (multiReduction .add [1] S128 (expVec Lg) 0x00000000#32 reduces_S128x128_S128 (.inl rfl) rfl)
      shapeCasts_S128_S128x1) broadcasts_S128x1_S128x128)

theorem weightVec_apply (i j : Fin 128) :
    weightVec Lg (ix2 i j) = Ideal.div (expVec Lg (ix2 i j)) (∑ j' : Fin 128, expVec Lg (ix2 i j')) := by
  show Ideal.div (expVec Lg (ix2 i j)) (broadcastTo S128x128 _ _ (ix2 i j)) = _
  rw [Cert.LibColumn.broadcastTo_a1_ab_apply, Cert.LibColumn.shapeCast_a_a1_apply]
  exact congrArg (Ideal.div (expVec Lg (ix2 i j))) (sum_axis1_apply _ _ _ _ i)

/-- The stored block from the chain's last link on: rectify relation 4, test the word against 4, mask untyped edges with the
    literal, take the row softmax, multiply by the features, and view the 128 x 256 product as 1 x 128 x 256. -/
theorem pay1_eq (v26 : IVec S128x128 32) (v31 : IVec S128x128 1) (v116 v129 : FVec Ideal S128x128 .f32) :
    k0_pay1 v13 v26 v31 v116 v129
      = shapeCast S1x128x256
          (matmul dot_S128x128_S128x256_S128x256_1_0_0_1_n_n none
            (truncf .bf16 (weightVec (select v31 (branch 4#32 v26 v129 v116)
              (broadcast S128x128 (Scalar.ofBits (F := Ideal) .f32 0xD9FFCB9E#32)))) bitsLt_bf16_f32)
            v13 (constant S128x256 .f32 0x00000000#32))
          shapeCasts_S128x256_S1x128x256 := rfl

/-- Entry (0, i, d) of such a block: the weights' row i against the features' column d. -/
theorem outVec_apply (i : Fin 128) (d : Fin 256) :
    shapeCast S1x128x256
        (matmul dot_S128x128_S128x256_S128x256_1_0_0_1_n_n none (truncf .bf16 (weightVec Lg) bitsLt_bf16_f32) v13 (constant S128x256 .f32 0x00000000#32))
        shapeCasts_S128x256_S1x128x256 (ix3 (0 : Fin 1) i d)
      = ∑ j : Fin 128, weightVec Lg (ix2 i j) * v13 (ix2 j d) := by
  rw [shapeCast_ab_1ab_apply, matmul_nn_apply]
  rfl

end Pieces

/-! ## The stored block against the specification -/

section Compose

variable (x0 : Vec Ideal S1x128x256 .f32) (x1 : Vec Ideal S1x128x128 .i32) (x2 : Vec Ideal S1x128x128 .f32)
  (x3 : Vec Ideal S256x5 .f32) (x4 : Vec Ideal S5x64x1x1 .f32) (x5 x6 : Vec Ideal S64x1x1 .f32)

/-- The blocks' entries as the specification's accessors: node features, edge types, intervals, the relation vectors, the
    interval weightings (stored relation-major), the code's frequencies and phases. -/
abbrev hbOf (i : Fin 128) (d : Fin 256) : EReal := x0 (ix3 (0 : Fin 1) i d)
abbrev adOf (i j : Fin 128) : BitVec 32 := x1 (ix3 (0 : Fin 1) i j)
abbrev avOf (i j : Fin 128) : EReal := x2 (ix3 (0 : Fin 1) i j)
abbrev apOf (d : Fin 256) (r : Fin 5) : EReal := x3 (ix2 d r)
abbrev iwOf (t : Fin 64) (r : Fin 5) : EReal := x4 (ix4 r t (0 : Fin 1) (0 : Fin 1))
abbrev frOf (t : Fin 64) : EReal := x5 (ix3 t (0 : Fin 1) (0 : Fin 1))
abbrev phOf (t : Fin 64) : EReal := x6 (ix3 t (0 : Fin 1) (0 : Fin 1))

theorem feat_apply (i : Fin 128) (d : Fin 256) : k0_pay2 x0 (ix2 i d) = hbOf x0 i d :=
  shapeCast_1ab_ab_apply x0 _ i d

/-- The features narrowed to the product's input format are the features: narrowing is the identity on extended reals. -/
theorem featb_apply (i : Fin 128) (d : Fin 256) : k0_pay5 x0 (ix2 i d) = hbOf x0 i d :=
  shapeCast_1ab_ab_apply x0 _ i d

theorem type_apply (i j : Fin 128) : k0_pay3 x1 (ix2 i j) = adOf x1 i j :=
  shapeCast_1ab_ab_apply x1 _ i j

theorem word_apply (i j : Fin 128) : k0_pay7 x1 (ix2 i j) = RelAttn.relWord (adOf x1 i j) := by
  show IntOp.minsi 4#32 (IntOp.maxsi 0#32 (IntOp.subi (k0_pay3 x1 (ix2 i j)) 1#32)) = _
  rw [type_apply]
  rfl

theorem edge_apply (i j : Fin 128) : k0_pay8 x1 (ix2 i j) = RelAttn.isEdge (adOf x1 i j) := by
  show IntOp.andi (IntOp.cmpi .sge (k0_pay3 x1 (ix2 i j)) 1#32) (IntOp.cmpi .sle (k0_pay3 x1 (ix2 i j)) 5#32) = _
  rw [type_apply]
  rfl

theorem tbl_eq : k0_pay4 x4 = x4 := shapeCast_self x4 _

/-- The cosine code at (t, i, j): the frequencies and phases repeated over the node pairs, the intervals over the code's axis. -/
theorem code_apply (t : Fin 64) (i j : Fin 128) :
    k0_pay6 x2 x5 x6 (ix3 t i j) = Ideal.cos (frOf x5 t * avOf x2 i j + phOf x6 t) := by
  show Ideal.cos (broadcastTo S64x128x128 (shapeCast S64x1x1 x5 _) _ (ix3 t i j)
      * broadcastTo S64x128x128 (shapeCast S1x128x128 (shapeCast S128x128 x2 _) _) _ (ix3 t i j)
      + broadcastTo S64x128x128 (shapeCast S64x1x1 x6 _) _ (ix3 t i j)) = _
  rw [broadcastTo_a11_abc_apply, broadcastTo_1bc_abc_apply, broadcastTo_a11_abc_apply, shapeCast_self, shapeCast_self,
    shapeCast_ab_1ab_apply, shapeCast_1ab_ab_apply]

/-- Relation o's raw score matrix over the blocks is the specification's raw score. -/
theorem rawOf_apply (o : ℕ) (ho : o < 5) (hs6 : S256x5.Slices ![0, o] S256x1) (hs8 : S5x64x1x1.Slices ![o, 0, 0, 0] S1x64x1x1)
    (i j : Fin 128) :
    rawVec (k0_pay2 x0) x3 (k0_pay4 x4) (k0_pay5 x0) (k0_pay6 x2 x5 x6) o hs6 hs8 (ix2 i j)
      = RelAttn.pre (hbOf x0) (avOf x2) (apOf x3) (iwOf x4) (frOf x5) (phOf x6) (⟨o, ho⟩ : Fin 5) i j := by
  rw [rawVec_apply _ _ _ _ _ o ho, tbl_eq]
  unfold RelAttn.pre
  congr 1
  · refine Finset.sum_congr rfl fun d _ => ?_
    rw [feat_apply, featb_apply]
  · refine Finset.sum_congr rfl fun t _ => ?_
    rw [code_apply]

/-- The masked logits as the body forms them. -/
def logitVec : FVec Ideal S128x128 .f32 :=
  select (k0_pay8 x1) (branch 4#32 (k0_pay7 x1) (k0_pay12 (k0_pay2 x0) x3 (k0_pay4 x4) (k0_pay5 x0) (k0_pay6 x2 x5 x6)) (k0_pay11 (k0_pay2 x0) x3 (k0_pay4 x4) (k0_pay5 x0) (k0_pay6 x2 x5 x6) (k0_pay7 x1) (k0_pay9 (k0_pay2 x0) x3 (k0_pay4 x4) (k0_pay5 x0) (k0_pay6 x2 x5 x6) (k0_pay7 x1) (Scalar.ofBits (F := Ideal) .f32 0x00000000#32)) (k0_pay10 (k0_pay2 x0) x3) (constant S128x128 .f32 0x00000000#32)))
    (broadcast S128x128 (Scalar.ofBits (F := Ideal) .f32 0xD9FFCB9E#32))

theorem logitVec_apply (i j : Fin 128) :
    logitVec x0 x1 x2 x3 x4 x5 x6 (ix2 i j) = RelAttn.logit (hbOf x0) (adOf x1) (avOf x2) (apOf x3) (iwOf x4) (frOf x5) (phOf x6) i j := by
  unfold logitVec
  rw [pay12_eq, pay11_eq, pay9_eq]
  show Scalar.select (k0_pay8 x1 (ix2 i j))
      (Scalar.select (IntOp.cmpi .eq (k0_pay7 x1 (ix2 i j)) 4#32) (RelAttn.leaky (rawVec (k0_pay2 x0) x3 (k0_pay4 x4) (k0_pay5 x0) (k0_pay6 x2 x5 x6) 4 slices_S256x5_o0_4_S256x1 slices_S5x64x1x1_o4_0_0_0_S1x64x1x1 (ix2 i j)))
        (Scalar.select (IntOp.cmpi .eq (k0_pay7 x1 (ix2 i j)) 3#32) (RelAttn.leaky (rawVec (k0_pay2 x0) x3 (k0_pay4 x4) (k0_pay5 x0) (k0_pay6 x2 x5 x6) 3 slices_S256x5_o0_3_S256x1 slices_S5x64x1x1_o3_0_0_0_S1x64x1x1 (ix2 i j)))
          (Scalar.select (IntOp.cmpi .eq (k0_pay7 x1 (ix2 i j)) 2#32) (RelAttn.leaky (rawVec (k0_pay2 x0) x3 (k0_pay4 x4) (k0_pay5 x0) (k0_pay6 x2 x5 x6) 2 slices_S256x5_o0_2_S256x1 slices_S5x64x1x1_o2_0_0_0_S1x64x1x1 (ix2 i j)))
            (Scalar.select (IntOp.cmpi .eq (k0_pay7 x1 (ix2 i j)) 1#32) (RelAttn.leaky (rawVec (k0_pay2 x0) x3 (k0_pay4 x4) (k0_pay5 x0) (k0_pay6 x2 x5 x6) 1 slices_S256x5_o0_1_S256x1 slices_S5x64x1x1_o1_0_0_0_S1x64x1x1 (ix2 i j)))
              (Scalar.select (IntOp.cmpi .eq (k0_pay7 x1 (ix2 i j)) 0#32) (RelAttn.leaky (rawVec (k0_pay2 x0) x3 (k0_pay4 x4) (k0_pay5 x0) (k0_pay6 x2 x5 x6) 0 slices_S256x5_o0_0_S256x1 slices_S5x64x1x1_o0_0_0_0_S1x64x1x1 (ix2 i j)))
                (Ideal.ofBits .f32 0x00000000#32))))))
      (Ideal.ofBits .f32 0xD9FFCB9E#32) = _
  rw [rawOf_apply x0 x2 x3 x4 x5 x6 4 (by decide), rawOf_apply x0 x2 x3 x4 x5 x6 3 (by decide), rawOf_apply x0 x2 x3 x4 x5 x6 2 (by decide),
    rawOf_apply x0 x2 x3 x4 x5 x6 1 (by decide), rawOf_apply x0 x2 x3 x4 x5 x6 0 (by decide), word_apply, edge_apply]
  rfl

/-- THE STORED BLOCK: entry (0, i, d) of what the body stores is the specification's output (i, d) of the blocks' entries. -/
theorem body_apply (i : Fin 128) (d : Fin 256) :
    k0_pay1 (k0_pay5 x0) (k0_pay7 x1) (k0_pay8 x1) (k0_pay11 (k0_pay2 x0) x3 (k0_pay4 x4) (k0_pay5 x0) (k0_pay6 x2 x5 x6) (k0_pay7 x1) (k0_pay9 (k0_pay2 x0) x3 (k0_pay4 x4) (k0_pay5 x0) (k0_pay6 x2 x5 x6) (k0_pay7 x1) (Scalar.ofBits (F := Ideal) .f32 0x00000000#32)) (k0_pay10 (k0_pay2 x0) x3) (constant S128x128 .f32 0x00000000#32)) (k0_pay12 (k0_pay2 x0) x3 (k0_pay4 x4) (k0_pay5 x0) (k0_pay6 x2 x5 x6)) (ix3 (0 : Fin 1) i d)
      = RelAttn.out (hbOf x0) (adOf x1) (avOf x2) (apOf x3) (iwOf x4) (frOf x5) (phOf x6) i d := by
  have hE : ∀ i j : Fin 128, expVec (logitVec x0 x1 x2 x3 x4 x5 x6) (ix2 i j) = RelAttn.expo (hbOf x0) (adOf x1) (avOf x2) (apOf x3) (iwOf x4) (frOf x5) (phOf x6) i j := by
    intro i j
    rw [expVec_apply]
    simp only [logitVec_apply]
    rfl
  have hW : ∀ i j : Fin 128, weightVec (logitVec x0 x1 x2 x3 x4 x5 x6) (ix2 i j) = RelAttn.weight (hbOf x0) (adOf x1) (avOf x2) (apOf x3) (iwOf x4) (frOf x5) (phOf x6) i j := by
    intro i j
    rw [weightVec_apply]
    simp only [hE]
    rfl
  rw [pay1_eq]
  show shapeCast S1x128x256
      (matmul dot_S128x128_S128x256_S128x256_1_0_0_1_n_n none (truncf .bf16 (weightVec (logitVec x0 x1 x2 x3 x4 x5 x6)) bitsLt_bf16_f32) (k0_pay5 x0) (constant S128x256 .f32 0x00000000#32))
      shapeCasts_S128x256_S1x128x256 (ix3 (0 : Fin 1) i d) = _
  rw [outVec_apply]
  simp only [hW, featb_apply]
  rfl

end Compose

end Cert.KernelIdeal.Body

end
-- ==== Proof.KernelValue.lean ====
/-
  From the blocks to the array.

  The grid has 32 points, one per batch: point t stages block t of the features (1 x 128 x 256), of the edge types and of
  the intervals (1 x 128 x 128), the whole relation table, and three small arrays the host made before the launch — the
  frequencies and the phases viewed as 64 x 1 x 1, and the interval weightings transposed and viewed as 5 x 64 x 1 x 1 —
  and writes block t of the output. Read through their blocks, the staged arrays are the arguments at batch t, so what
  point t writes back is block t of the layer's output array (`flushed_eq`); the 32 blocks cover the output (`cover`),
  hence after the run the output array IS the layer's output of the argument arrays (`final`, `run`).
-/
import proofs.«407681_j52836687675884_3_alg».proof.Proof.Gen.KernelIdeal.Value
import proofs.«407681_j52836687675884_3_alg».proof.Proof.KernelBody
import Idealize.ShloMosaic.Lib.StableHlo.Run

noncomputable section

namespace Cert.KernelIdeal.ArrValue

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 32 grid points: the three batched inputs and the output sit at block (t, 0, 0),
    the four shared arrays at their one block. -/
theorem idx_facts : ∀ t : Fin cfg0.N,
    (win0_0.index t (0 : Fin 3) = t.val ∧ win0_0.index t (1 : Fin 3) = 0 ∧ win0_0.index t (2 : Fin 3) = 0) ∧ (win0_1.index t (0 : Fin 3) = t.val ∧ win0_1.index t (1 : Fin 3) = 0 ∧ win0_1.index t (2 : Fin 3) = 0) ∧ (win0_2.index t (0 : Fin 3) = t.val ∧ win0_2.index t (1 : Fin 3) = 0 ∧ win0_2.index t (2 : Fin 3) = 0) ∧ (win0_7.index t (0 : Fin 3) = t.val ∧ win0_7.index t (1 : Fin 3) = 0 ∧ win0_7.index t (2 : Fin 3) = 0)
    ∧ (win0_3.index t (0 : Fin 2) = 0 ∧ win0_3.index t (1 : Fin 2) = 0)
    ∧ (win0_4.index t (0 : Fin 4) = 0 ∧ win0_4.index t (1 : Fin 4) = 0 ∧ win0_4.index t (2 : Fin 4) = 0 ∧ win0_4.index t (3 : Fin 4) = 0)
    ∧ (win0_5.index t (0 : Fin 3) = 0 ∧ win0_5.index t (1 : Fin 3) = 0 ∧ win0_5.index t (2 : Fin 3) = 0) ∧ (win0_6.index t (0 : Fin 3) = 0 ∧ win0_6.index t (1 : Fin 3) = 0 ∧ win0_6.index t (2 : Fin 3) = 0) :=
  (by decide +kernel : ∀ t : Fin grid0.N, _)

/-- Grid point t's batch. -/
abbrev bOf (t : Fin cfg0.N) : Fin 32 := ⟨t.val, lt_of_lt_of_eq t.isLt N_0⟩

/-! ## The arrays the host made before the launch, read at an index -/

theorem V_v0 (c : Dev nD) : (V m c main_v0 : S64x1x1.Idx → EReal)
    = shapeCast S64x1x1 (m ((c : Thread nD τ).loc main_arg4)) shapeCasts_S64_S64x1x1 := by
  dsimp only [Gen.V, Gen.hostOps0]; after_results; rfl

theorem V_v1 (c : Dev nD) : (V m c main_v1 : S64x1x1.Idx → EReal)
    = shapeCast S64x1x1 (m ((c : Thread nD τ).loc main_arg5)) shapeCasts_S64_S64x1x1 := by
  dsimp only [Gen.V, Gen.hostOps0]; after_results; rfl

theorem V_v3 (c : Dev nD) : (V m c main_v3 : S5x64x1x1.Idx → EReal)
    = shapeCast S5x64x1x1 (transpose S5x64 [1, 0] (m ((c : Thread nD τ).loc main_arg3)) transposes_S64x5_S5x64_1_0) shapeCasts_S5x64_S5x64x1x1 := by
  dsimp only [Gen.V, Gen.hostOps0]; after_results; rfl

/-- A length-64 vector viewed as 64 x 1 x 1 reads, at (t, 0, 0), its entry t. -/
theorem col3_apply (x : S64.Idx → EReal) (h : S64.ShapeCasts S64x1x1) (k : Fin 64) :
    shapeCast S64x1x1 x h (ix3 k (0 : Fin 1) (0 : Fin 1)) = x (ix1 k) :=
  shapeCast_apply x h _ _ (by
    rw [Shape.rowMajor_val_one, Shape.rowMajor_val_three]
    show k.val = (k.val * 1 + 0) * 1 + 0
    omega)

/-- A 5 x 64 array viewed as 5 x 64 x 1 x 1 reads, at (r, t, 0, 0), its entry (r, t). -/
theorem tbl4_apply (x : S5x64.Idx → EReal) (h : S5x64.ShapeCasts S5x64x1x1) (r : Fin 5) (k : Fin 64) :
    shapeCast S5x64x1x1 x h (ix4 r k (0 : Fin 1) (0 : Fin 1)) = x (ix2 r k) :=
  shapeCast_apply x h _ _ (by
    rw [Shape.rowMajor_val_two, Shape.rowMajor_val_four]
    show r.val * 64 + k.val = ((r.val * 64 + k.val) * 1 + 0) * 1 + 0
    omega)

/-! ## The staged blocks are the arguments at batch t -/

section Reads
variable (c : Dev nD) (t : Fin cfg0.N)

theorem read0 (i : Fin 128) (d : Fin 256) : iblk m c 0 t (ix3 (0 : Fin 1) i d) = (m ((c : Thread nD τ).loc main_arg0)) (ix3 (bOf t) i d) := by
  obtain ⟨⟨e0, e1, e2⟩, -⟩ := idx_facts t
  show V m c main_arg0 (((cfg0.win 0).blk t).view.emb (ix3 (0 : Fin 1) i d)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 128 + 1 * i.val = i.val; omega
  | ⟨2, _⟩ => show win0_0.index t (2 : Fin 3) * 256 + 1 * d.val = d.val; omega

theorem read1 (i j : Fin 128) : iblk m c 1 t (ix3 (0 : Fin 1) i j) = (m ((c : Thread nD τ).loc main_arg6)) (ix3 (bOf t) i j) := by
  obtain ⟨-, ⟨e0, e1, e2⟩, -⟩ := idx_facts t
  show V m c main_arg6 (((cfg0.win 1).blk t).view.emb (ix3 (0 : Fin 1) i j)) = _
  rw [V_main_arg6]
  refine congrArg _ (funext fun a => Fin.ext ?_)
  match a with
  | ⟨0, _⟩ => show win0_1.index t (0 : Fin 3) * 1 + 1 * 0 = t.val; omega
  | ⟨1, _⟩ => show win0_1.index t (1 : Fin 3) * 128 + 1 * i.val = i.val; omega
  | ⟨2, _⟩ => show win0_1.index t (2 : Fin 3) * 128 + 1 * j.val = j.val; omega

theorem read2 (i j : Fin 128) : iblk m c 2 t (ix3 (0 : Fin 1) i j) = (m ((c : Thread nD τ).loc main_arg1)) (ix3 (bOf t) i j) := by
  obtain ⟨-, -, ⟨e0, e1, e2⟩, -⟩ := idx_facts t
  show V m c main_arg1 (((cfg0.win 2).blk t).view.emb (ix3 (0 : Fin 1) i j)) = _
  rw [V_main_arg1]
  refine congrArg _ (funext fun a => Fin.ext ?_)
  match a with
  | ⟨0, _⟩ => show win0_2.index t (0 : Fin 3) * 1 + 1 * 0 = t.val; omega
  | ⟨1, _⟩ => show win0_2.index t (1 : Fin 3) * 128 + 1 * i.val = i.val; omega
  | ⟨2, _⟩ => show win0_2.index t (2 : Fin 3) * 128 + 1 * j.val = j.val; omega

theorem read3 (d : Fin 256) (r : Fin 5) : iblk m c 3 t (ix2 d r) = (m ((c : Thread nD τ).loc main_arg2)) (ix2 d r) := by
  obtain ⟨-, -, -, -, ⟨e0, e1⟩, -⟩ := idx_facts t
  show V m c main_arg2 (((cfg0.win 3).blk t).view.emb (ix2 d r)) = _
  rw [V_main_arg2]
  refine congrArg _ (funext fun a => Fin.ext ?_)
  match a with
  | ⟨0, _⟩ => show win0_3.index t (0 : Fin 2) * 256 + 1 * d.val = d.val; omega
  | ⟨1, _⟩ => show win0_3.index t (1 : Fin 2) * 5 + 1 * r.val = r.val; omega

theorem read4 (k : Fin 64) (r : Fin 5) : iblk m c 4 t (ix4 r k (0 : Fin 1) (0 : Fin 1)) = (m ((c : Thread nD τ).loc main_arg3)) (ix2 k r) := by
  obtain ⟨-, -, -, -, -, ⟨e0, e1, e2, e3⟩, -⟩ := idx_facts t
  show V m c main_v3 (((cfg0.win 4).blk t).view.emb (ix4 r k (0 : Fin 1) (0 : Fin 1))) = _
  have he : ((cfg0.win 4).blk t).view.emb (ix4 r k (0 : Fin 1) (0 : Fin 1)) = ix4 r k (0 : Fin 1) (0 : Fin 1) := by
    refine funext fun a => Fin.ext ?_
    match a with
    | ⟨0, _⟩ => show win0_4.index t (0 : Fin 4) * 5 + 1 * r.val = r.val; omega
    | ⟨1, _⟩ => show win0_4.index t (1 : Fin 4) * 64 + 1 * k.val = k.val; omega
    | ⟨2, _⟩ => show win0_4.index t (2 : Fin 4) * 1 + 1 * 0 = 0; omega
    | ⟨3, _⟩ => show win0_4.index t (3 : Fin 4) * 1 + 1 * 0 = 0; omega
  rw [he]
  refine (congrFun (V_v3 m c) _).trans ?_
  rw [tbl4_apply, transpose_ix2_apply]

theorem read5 (k : Fin 64) : iblk m c 5 t (ix3 k (0 : Fin 1) (0 : Fin 1)) = (m ((c : Thread nD τ).loc main_arg4)) (ix1 k) := by
  obtain ⟨-, -, -, -, -, -, ⟨e0, e1, e2⟩, -⟩ := idx_facts t
  show V m c main_v0 (((cfg0.win 5).blk t).view.emb (ix3 k (0 : Fin 1) (0 : Fin 1))) = _
  have he : ((cfg0.win 5).blk t).view.emb (ix3 k (0 : Fin 1) (0 : Fin 1)) = ix3 k (0 : Fin 1) (0 : Fin 1) := by
    refine funext fun a => Fin.ext ?_
    match a with
    | ⟨0, _⟩ => show win0_5.index t (0 : Fin 3) * 64 + 1 * k.val = k.val; omega
    | ⟨1, _⟩ => show win0_5.index t (1 : Fin 3) * 1 + 1 * 0 = 0; omega
    | ⟨2, _⟩ => show win0_5.index t (2 : Fin 3) * 1 + 1 * 0 = 0; omega
  rw [he]
  refine (congrFun (V_v0 m c) _).trans ?_
  rw [col3_apply]

theorem read6 (k : Fin 64) : iblk m c 6 t (ix3 k (0 : Fin 1) (0 : Fin 1)) = (m ((c : Thread nD τ).loc main_arg5)) (ix1 k) := by
  obtain ⟨-, -, -, -, -, -, -, ⟨e0, e1, e2⟩⟩ := idx_facts t
  show V m c main_v1 (((cfg0.win 6).blk t).view.emb (ix3 k (0 : Fin 1) (0 : Fin 1))) = _
  have he : ((cfg0.win 6).blk t).view.emb (ix3 k (0 : Fin 1) (0 : Fin 1)) = ix3 k (0 : Fin 1) (0 : Fin 1) := by
    refine funext fun a => Fin.ext ?_
    match a with
    | ⟨0, _⟩ => show win0_6.index t (0 : Fin 3) * 64 + 1 * k.val = k.val; omega
    | ⟨1, _⟩ => show win0_6.index t (1 : Fin 3) * 1 + 1 * 0 = 0; omega
    | ⟨2, _⟩ => show win0_6.index t (2 : Fin 3) * 1 + 1 * 0 = 0; omega
  rw [he]
  refine (congrFun (V_v1 m c) _).trans ?_
  rw [col3_apply]

/-- The output's block at point t sits at batch t. -/
theorem emb7 (i : Fin 128) (d : Fin 256) :
    ((cfg0.win 7).blk t).view.emb (ix3 (0 : Fin 1) i d) = ix3 (bOf t) i d := by
  obtain ⟨-, -, -, ⟨e0, e1, e2⟩, -⟩ := idx_facts t
  refine funext fun a => Fin.ext ?_
  match a with
  | ⟨0, _⟩ => show win0_7.index t (0 : Fin 3) * 1 + 1 * 0 = t.val; omega
  | ⟨1, _⟩ => show win0_7.index t (1 : Fin 3) * 128 + 1 * i.val = i.val; omega
  | ⟨2, _⟩ => show win0_7.index t (2 : Fin 3) * 256 + 1 * d.val = d.val; omega

end Reads

/-! ## What the run leaves in the output array -/

/-- The layer's output array of the argument arrays as launched. -/
abbrev Gk (c : Dev nD) : S32x128x256.Idx → EReal :=
  RelAttn.layerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT POINT t WRITES BACK is block t of the layer's output array. -/
theorem flushed_eq (c : Dev nD) (t : Fin cfg0.N) :
    (dats m 0 c).flushed 7 t = ((cfg0.win 7).blk t).view.read (Elt Ideal) (Gk m c) := by
  rw [flushed7]
  unfold out0_7
  rw [View.canon_unit_zero hz3]
  simp only [View.ld_unit_zero (S := S1x128x256) hz3, View.ld_unit_zero (S := S1x128x128) hz3, View.ld_unit_zero (S := S256x5) hz2,
    View.ld_unit_zero (S := S5x64x1x1) hz4, View.ld_unit_zero (S := S64x1x1) hz3]
  funext y
  obtain ⟨u, i, d, rfl⟩ : ∃ (u : Fin 1) (i : Fin 128) (d : Fin 256), y = ix3 u i d := ⟨y 0, y 1, y 2, eq_ix3 y⟩
  obtain rfl : u = 0 := Subsingleton.elim _ _
  show k0_pay1 (k0_pay5 (iblk m c 0 t)) (k0_pay7 (iblk m c 1 t)) (k0_pay8 (iblk m c 1 t)) (k0_pay11 (k0_pay2 (iblk m c 0 t)) (iblk m c 3 t) (k0_pay4 (iblk m c 4 t)) (k0_pay5 (iblk m c 0 t)) (k0_pay6 (iblk m c 2 t) (iblk m c 5 t) (iblk m c 6 t)) (k0_pay7 (iblk m c 1 t)) (k0_pay9 (k0_pay2 (iblk m c 0 t)) (iblk m c 3 t) (k0_pay4 (iblk m c 4 t)) (k0_pay5 (iblk m c 0 t)) (k0_pay6 (iblk m c 2 t) (iblk m c 5 t) (iblk m c 6 t)) (k0_pay7 (iblk m c 1 t)) (Scalar.ofBits (F := Ideal) .f32 0x00000000#32)) (k0_pay10 (k0_pay2 (iblk m c 0 t)) (iblk m c 3 t)) (constant S128x128 .f32 0x00000000#32)) (k0_pay12 (k0_pay2 (iblk m c 0 t)) (iblk m c 3 t) (k0_pay4 (iblk m c 4 t)) (k0_pay5 (iblk m c 0 t)) (k0_pay6 (iblk m c 2 t) (iblk m c 5 t) (iblk m c 6 t))) (ix3 (0 : Fin 1) i d)
    = Gk m c (((cfg0.win 7).blk t).view.emb (ix3 (0 : Fin 1) i d))
  rw [emb7 t i d, body_apply]
  have e0 : hbOf (iblk m c 0 t) = fun i d => (m ((c : Thread nD τ).loc main_arg0)) (ix3 (bOf t) i d) := funext fun i => funext fun d => read0 m c t i d
  have e1 : adOf (iblk m c 1 t) = fun i j => (m ((c : Thread nD τ).loc main_arg6)) (ix3 (bOf t) i j) := funext fun i => funext fun j => read1 m c t i j
  have e2 : avOf (iblk m c 2 t) = fun i j => (m ((c : Thread nD τ).loc main_arg1)) (ix3 (bOf t) i j) := funext fun i => funext fun j => read2 m c t i j
  have e3 : apOf (iblk m c 3 t) = fun d r => (m ((c : Thread nD τ).loc main_arg2)) (ix2 d r) := funext fun d => funext fun r => read3 m c t d r
  have e4 : iwOf (iblk m c 4 t) = fun k r => (m ((c : Thread nD τ).loc main_arg3)) (ix2 k r) := funext fun k => funext fun r => read4 m c t k r
  have e5 : frOf (iblk m c 5 t) = fun k => (m ((c : Thread nD τ).loc main_arg4)) (ix1 k) := funext fun k => read5 m c t k
  have e6 : phOf (iblk m c 6 t) = fun k => (m ((c : Thread nD τ).loc main_arg5)) (ix1 k) := funext fun k => read6 m c t k
  rw [e0, e1, e2, e3, e4, e5, e6]
  rfl

/-- An index of the output array is in point t's block iff each coordinate is in the block's range on its axis. -/
theorem mem_blk (t : Fin cfg0.N) (i : S32x128x256.Idx) :
    i ∈ ((cfg0.win 7).blk t).view.set ↔ ∀ a : Fin 3, win0_7.index t a * S1x128x256.size a ≤ (i a).val ∧ (i a).val < win0_7.index t a * S1x128x256.size a + S1x128x256.size a := by
  show i ∈ ((View.whole main_v4).slice (win0_7.rect t)).set ↔ _
  rw [View.set_slice_whole, Rect.mem_set_unit]
  exact Iff.rfl

/-- The 32 blocks cover the output array: index (b, i, d) lies in point b's block. -/
theorem cover (c : Dev nD) (i : S32x128x256.Idx) :
    ∃ t : Fin cfg0.N, (cfg0.win 7).flush t = true ∧ i ∈ ((cfg0.win 7).blk t).view.set := by
  have h0 : (i 0).val < 32 := (i 0).isLt
  have h1 : (i 1).val < 128 := (i 1).isLt
  have h2 : (i 2).val < 256 := (i 2).isLt
  refine ⟨⟨(i 0).val, lt_of_lt_of_eq h0 N_0.symm⟩, flush0_7 _, ?_⟩
  obtain ⟨-, -, -, ⟨e0, e1, e2⟩, -⟩ := idx_facts ⟨(i 0).val, lt_of_lt_of_eq h0 N_0.symm⟩
  rw [mem_blk]
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 128 ≤ (i 1).val ∧ (i 1).val < win0_7.index _ (1 : Fin 3) * 128 + 128; omega
  | ⟨2, _⟩ => show win0_7.index _ (2 : Fin 3) * 256 ≤ (i 2).val ∧ (i 2).val < win0_7.index _ (2 : Fin 3) * 256 + 256; omega

/-- THE OUTPUT ARRAY after the run is the layer's output of the argument arrays. -/
theorem final (c : Dev nD) : (dats m 0 c).arrAt 7 cfg0.N = Gk m c :=
  (dats m 0 c).arrAt_eq_of_cover 7 (Gk m c) (fun t _ => flushed_eq m c t) (cover c)

/-- The kernel's run, read: every weakly fair execution terminates with the result array at the layer's output of the
    argument arrays, the arguments unchanged. -/
theorem run : θ_run defs (onTc (τ := τ) (main (F := Ideal))) ⟨m, fun _ => 0, ρ⟩ fun r => ∀ c : Dev nD,
      r.2.mem ((c : Thread nD τ).loc main_v4) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrValue

end
-- ==== Proof.RefValue.lean ====
/-
  The reference, read entry by entry.

  The reference forms, for every batch b and pair of nodes (i, j), the products h b i d · h b j d over the features, the code
  cos (v b i j · fr t + ph t), and for each of the five relations the two contractions against ap and iw, summed and sent through
  the leaky rectifier; it takes the relation the clipped edge type names out of the five by a gather along the last axis
  (guarded by a range test whose "out of range" arm holds a not-a-number literal), masks untyped edges with the literal −9e15,
  takes the softmax of each row and contracts the weights with the features. This module reads the generated stage lemmas
  along that chain: every stage at an index is the specification's corresponding quantity of batch b's slices. Three stages are
  read by hand — the gather (the index is always one of 0, …, 4, so the guard is true and the gather picks that relation), the
  guard's one-element "and", and the row maximum (a fold of max from −∞, once more joined with −∞). The two sides differ from
  the specification only in the order of factors: (h i d · h j d) · ap d r against (h i d · ap d r) · h j d, and v · fr against
  fr · v; multiplication on the extended reals is commutative and associative, so nothing here needs finiteness.
-/
import proofs.«407681_j52836687675884_3_alg».proof.Proof.RefRead
import proofs.«407681_j52836687675884_3_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- A one-operand "and"-reduce of an all-ones array from an all-ones initial value is one at every index. -/
theorem reduce_andi_ones {s t u : Shape} {axes : List (Fin s.rank)} (x : s.Idx → BitVec 1) (hx : ∀ i, x i = 1#1)
    (init : u.Idx → BitVec 1) (hi : ∀ k, init k = 1#1) (h : s.ReducesTo axes t) (hu : 0 < u.numel) (j : t.Idx) :
    Host.reduce IntOp.andi x init h hu j = 1#1 := by
  rw [Host.reduce_eq_foldl, hi]
  generalize List.filter _ _ = l
  induction l with
  | nil => rfl
  | cons a l ih =>
    rw [List.foldl_cons, hx a]
    have e : IntOp.andi (1#1 : BitVec 1) 1#1 = 1#1 := by decide
    rw [e]
    exact ih

/-- A signed word that is one of 0, …, 4 is not negative, so wrapping negatives round by 5 leaves it alone. -/
theorem wrap_of_cases (k : BitVec 32) (hk : k = 0#32 ∨ k = 1#32 ∨ k = 2#32 ∨ k = 3#32 ∨ k = 4#32) :
    Scalar.select (IntOp.cmpi .slt k 0#32) (IntOp.addi k 5#32) k = k := by
  rcases hk with rfl | rfl | rfl | rfl | rfl <;> rfl

/-- … and it passes the range test 0 ≤ k ≤ 4. -/
theorem inrange_of_cases (k : BitVec 32) (hk : k = 0#32 ∨ k = 1#32 ∨ k = 2#32 ∨ k = 3#32 ∨ k = 4#32) :
    IntOp.andi (IntOp.cmpi .sge k 0#32) (IntOp.cmpi .sle k 4#32) = 1#1 := by
  rcases hk with rfl | rfl | rfl | rfl | rfl <;> rfl

/-- Viewing a 32 x 128 x 128 x 1 array as 32 x 128 x 128 x 1 x 1 and back along the edge types' broadcast keeps (b, i, j). -/
theorem idx25_eq (b : Fin 32) (i j : Fin 128) (u v : Fin 1) :
    idx_main_v25 (idx_main_call2_v5 (ix5 b i j u v)) = ix3 b i j := by
  have hi := i.isLt
  have hj := j.isLt
  have hu : u.val = 0 := by have := u.isLt; omega
  have hv : v.val = 0 := by have := v.isLt; omega
  refine funext fun a => Fin.ext ?_
  match a with
  | ⟨0, _⟩ => show ((((b.val * 128 + i.val) * 128 + j.val) * 1 + u.val) * 1 + v.val) / 16384 = b.val; omega
  | ⟨1, _⟩ => show ((((b.val * 128 + i.val) * 128 + j.val) * 1 + u.val) * 1 + v.val) / 128 % 128 = i.val; omega
  | ⟨2, _⟩ => show ((((b.val * 128 + i.val) * 128 + j.val) * 1 + u.val) * 1 + v.val) / 1 % 128 = j.val; omega

/-- Dropping the trailing unit axis of a 32 x 128 x 128 x 1 array: (b, i, j) reads (b, i, j, 0). -/
theorem idx27_eq (b : Fin 32) (i j : Fin 128) : idx_main_v27 (ix3 b i j) = ix4 b i j (0 : Fin 1) := by
  have hi := i.isLt
  have hj := j.isLt
  refine funext fun a => Fin.ext ?_
  match a with
  | ⟨0, _⟩ => show ((b.val * 128 + i.val) * 128 + j.val) / 16384 = b.val; omega
  | ⟨1, _⟩ => show ((b.val * 128 + i.val) * 128 + j.val) / 128 % 128 = i.val; omega
  | ⟨2, _⟩ => show ((b.val * 128 + i.val) * 128 + j.val) / 1 % 128 = j.val; omega
  | ⟨3, _⟩ => rfl

section
variable (x0 : (⟨S32x128x256, .f32⟩ : BufTy).Contents (Elt Ideal)) (x1 : (⟨S32x128x128, .f32⟩ : BufTy).Contents (Elt Ideal)) (x2 : (⟨S256x5, .f32⟩ : BufTy).Contents (Elt Ideal))
  (x3 : (⟨S64x5, .f32⟩ : BufTy).Contents (Elt Ideal)) (x4 x5 : (⟨S64, .f32⟩ : BufTy).Contents (Elt Ideal)) (x6 : (⟨S32x128x128, .i32⟩ : BufTy).Contents (Elt Ideal))

/-- The cosine code at (b, i, j, t). -/
theorem enc_apply (b : Fin 32) (i j : Fin 128) (t : Fin 64) :
    val_main_v13 (F := Ideal) x1 x4 x5 (ix4 b i j t) = Ideal.cos (x1 (ix3 b i j) * x4 (ix1 t) + x5 (ix1 t)) := by
  rw [val_main_v13_apply, val_main_v12_apply, val_main_v9_apply, val_main_v7_apply, val_main_v5_apply, val_main_v8_apply,
    val_main_v6_apply, val_main_v11_apply, val_main_v10_apply]
  have ea : idx_main_v5 (idx_main_v7 (ix4 b i j t)) = ix3 b i j := funext fun a => Fin.ext (by match a with | ⟨0, _⟩ => rfl | ⟨1, _⟩ => rfl | ⟨2, _⟩ => rfl)
  have ef : idx_main_v6 (idx_main_v8 (ix4 b i j t)) = ix1 t := funext fun a => Fin.ext (by match a with | ⟨0, _⟩ => rfl)
  have ep : idx_main_v10 (idx_main_v11 (ix4 b i j t)) = ix1 t := funext fun a => Fin.ext (by match a with | ⟨0, _⟩ => rfl)
  rw [ea, ef, ep]
  rfl

/-- The pairwise feature products at (b, i, j, d). -/
theorem outer_apply (b : Fin 32) (i j : Fin 128) (d : Fin 256) :
    val_main_v4 (F := Ideal) x0 (ix4 b i j d) = x0 (ix3 b i d) * x0 (ix3 b j d) := by
  rw [val_main_v4_apply, val_main_v2_apply, val_main_v0_apply, val_main_v3_apply, val_main_v1_apply]
  have e1 : idx_main_v0 (idx_main_v2 (ix4 b i j d)) = ix3 b i d := funext fun a => Fin.ext (by match a with | ⟨0, _⟩ => rfl | ⟨1, _⟩ => rfl | ⟨2, _⟩ => rfl)
  have e2 : idx_main_v1 (idx_main_v3 (ix4 b i j d)) = ix3 b j d := funext fun a => Fin.ext (by match a with | ⟨0, _⟩ => rfl | ⟨1, _⟩ => rfl | ⟨2, _⟩ => rfl)
  rw [e1, e2]
  rfl

/-- The five raw scores at (b, i, j, r) are the specification's, the factors of each product regrouped. -/
theorem pre_apply (b : Fin 32) (i j : Fin 128) (r : Fin 5) :
    val_main_v16 (F := Ideal) x0 x1 x2 x3 x4 x5 (ix4 b i j r)
      = RelAttn.pre (fun i d => x0 (ix3 b i d)) (fun i j => x1 (ix3 b i j)) (fun d r => x2 (ix2 d r)) (fun t r => x3 (ix2 t r)) (fun t => x4 (ix1 t)) (fun t => x5 (ix1 t)) r i j := by
  rw [val_main_v16_apply, val_main_v14_apply, val_main_v15_apply]
  unfold RelAttn.pre
  refine congrArg₂ (· + ·) (Finset.sum_congr rfl fun k _ => ?_) (Finset.sum_congr rfl fun k _ => ?_)
  · have el : lidx_main_v14 (ix4 b i j r) k = ix4 b i j k := funext fun a => Fin.ext (by match a with | ⟨0, _⟩ => rfl | ⟨1, _⟩ => rfl | ⟨2, _⟩ => rfl | ⟨3, _⟩ => rfl)
    have er : ridx_main_v14 (ix4 b i j r) k = ix2 k r := funext fun a => Fin.ext (by match a with | ⟨0, _⟩ => rfl | ⟨1, _⟩ => rfl)
    rw [el, er, outer_apply]
    exact mul_right_comm _ _ _
  · have el : lidx_main_v15 (ix4 b i j r) k = ix4 b i j k := funext fun a => Fin.ext (by match a with | ⟨0, _⟩ => rfl | ⟨1, _⟩ => rfl | ⟨2, _⟩ => rfl | ⟨3, _⟩ => rfl)
    have er : ridx_main_v15 (ix4 b i j r) k = ix2 k r := funext fun a => Fin.ext (by match a with | ⟨0, _⟩ => rfl | ⟨1, _⟩ => rfl)
    rw [el, er, enc_apply, mul_comm (x1 (ix3 b i j)) (x4 (ix1 k))]

/-- The five rectified scores. -/
theorem score_apply (b : Fin 32) (i j : Fin 128) (r : Fin 5) :
    val_main_v21 (F := Ideal) x0 x1 x2 x3 x4 x5 (ix4 b i j r)
      = RelAttn.score (fun i d => x0 (ix3 b i d)) (fun i j => x1 (ix3 b i j)) (fun d r => x2 (ix2 d r)) (fun t r => x3 (ix2 t r)) (fun t => x4 (ix1 t)) (fun t => x5 (ix1 t)) r i j := by
  rw [val_main_v21_apply, val_main_v18_apply, val_main_v20_apply, val_main_v17_apply, val_main_v19_apply, val_main_cst_apply,
    val_main_cst_0_apply, pre_apply]
  rfl

/-- The clipped relation word. -/
theorem wordR_apply (b : Fin 32) (i j : Fin 128) :
    val_main_v24 (F := Ideal) x6 (ix3 b i j) = RelAttn.relWord (x6 (ix3 b i j)) := by
  rw [val_main_v24_apply, val_main_call1_v4_apply, val_main_call1_v3_apply, val_main_c_2_apply, val_main_call1_v2_apply,
    val_main_call1_v1_apply, val_main_call1_v0_apply, val_main_c_1_apply, val_main_v23_apply, val_main_v22_apply, val_main_c_apply]
  rfl

/-- The typed-edge bit. -/
theorem edgeR_apply (b : Fin 32) (i j : Fin 128) :
    val_main_v32 (F := Ideal) x6 (ix3 b i j) = RelAttn.isEdge (x6 (ix3 b i j)) := by
  rw [val_main_v32_apply, val_main_v29_apply, val_main_v28_apply, val_main_c_3_apply, val_main_v31_apply, val_main_v30_apply,
    val_main_c_4_apply]
  rfl

/-- The gather's start index at (b, i, j, ·, ·): the relation word itself, since it is never negative. -/
theorem start_apply (b : Fin 32) (i j : Fin 128) (u v : Fin 1) :
    val_main_call2_v5 (F := Ideal) x6 (ix5 b i j u v) = RelAttn.relWord (x6 (ix3 b i j)) := by
  rw [val_main_call2_v5_apply, val_main_call2_v4_apply, val_main_call2_v1_apply, val_main_call2_v3_apply, val_main_call2_v0_apply,
    val_main_call2_c_apply, val_main_call2_v2_apply, val_main_call2_c_0_apply, val_main_v25_apply]
  rw [idx25_eq, wordR_apply]
  exact wrap_of_cases _ (RelAttn.relWord_cases _)

/-- The gather's range test holds everywhere. -/
theorem guard_apply (y : S32x128x128x1.Idx) : val_main_call2_v12 (F := Ideal) x6 y = 1#1 := by
  unfold val_main_call2_v12
  refine reduce_andi_ones _ (fun z => ?_) _ (fun _ => rfl) _ _ _
  obtain ⟨b, i, j, u, v, rfl⟩ : ∃ (b : Fin 32) (i j : Fin 128) (u v : Fin 1), z = ix5 b i j u v :=
    ⟨z 0, z 1, z 2, z 3, z 4, eq_ix5 z⟩
  rw [val_main_call2_v11_apply, val_main_call2_v7_apply, val_main_call2_v10_apply, val_main_call2_v6_apply, val_main_call2_c_2_apply,
    val_main_call2_v9_apply, val_main_call2_v8_apply, val_main_call2_c_1_apply, start_apply]
  exact inrange_of_cases _ (RelAttn.relWord_cases _)

/-- THE GATHER at (b, i, j, ·): the rectified score of the relation at the word's position. -/
theorem gather_apply (b : Fin 32) (i j : Fin 128) (u : Fin 1) :
    val_main_call2_v13 (F := Ideal) x0 x1 x2 x3 x4 x5 x6 (ix4 b i j u)
      = val_main_v21 (F := Ideal) x0 x1 x2 x3 x4 x5 (ix4 b i j (RelAttn.relPos (RelAttn.relWord (x6 (ix3 b i j))))) := by
  unfold val_main_call2_v13 Host.gather
  refine congrArg _ (funext fun a => Fin.ext ?_)
  match a with
  | ⟨0, _⟩ =>
    show gather_S32x128x128x5_S32x128x128x1x1_S32x128x128x1_n_3_012_012_3_4_1111.start (ix4 b i j u) (val_main_call2_v5 (F := Ideal) x6) 0
        + gather_S32x128x128x5_S32x128x128x1x1_S32x128x128x1_n_3_012_012_3_4_1111.batchCoord (ix4 b i j u) 0 + gather_S32x128x128x5_S32x128x128x1x1_S32x128x128x1_n_3_012_012_3_4_1111.offCoord (ix4 b i j u) 0 = _
    rw [GatherDims.start_batching _ _ _ _ (by decide), GatherDims.offCoord_eq_zero _ _ _ (by decide)]
    simp only [Nat.zero_add, Nat.add_zero]
    unfold GatherDims.batchCoord
    rw [dif_pos (show (0 : Fin S32x128x128x5.rank) ∈ gather_S32x128x128x5_S32x128x128x1x1_S32x128x128x1_n_3_012_012_3_4_1111.operandBatchingDims by decide)]
    rfl
  | ⟨1, _⟩ =>
    show gather_S32x128x128x5_S32x128x128x1x1_S32x128x128x1_n_3_012_012_3_4_1111.start (ix4 b i j u) (val_main_call2_v5 (F := Ideal) x6) 1
        + gather_S32x128x128x5_S32x128x128x1x1_S32x128x128x1_n_3_012_012_3_4_1111.batchCoord (ix4 b i j u) 1 + gather_S32x128x128x5_S32x128x128x1x1_S32x128x128x1_n_3_012_012_3_4_1111.offCoord (ix4 b i j u) 1 = _
    rw [GatherDims.start_batching _ _ _ _ (by decide), GatherDims.offCoord_eq_zero _ _ _ (by decide)]
    simp only [Nat.zero_add, Nat.add_zero]
    unfold GatherDims.batchCoord
    rw [dif_pos (show (1 : Fin S32x128x128x5.rank) ∈ gather_S32x128x128x5_S32x128x128x1x1_S32x128x128x1_n_3_012_012_3_4_1111.operandBatchingDims by decide)]
    rfl
  | ⟨2, _⟩ =>
    show gather_S32x128x128x5_S32x128x128x1x1_S32x128x128x1_n_3_012_012_3_4_1111.start (ix4 b i j u) (val_main_call2_v5 (F := Ideal) x6) 2
        + gather_S32x128x128x5_S32x128x128x1x1_S32x128x128x1_n_3_012_012_3_4_1111.batchCoord (ix4 b i j u) 2 + gather_S32x128x128x5_S32x128x128x1x1_S32x128x128x1_n_3_012_012_3_4_1111.offCoord (ix4 b i j u) 2 = _
    rw [GatherDims.start_batching _ _ _ _ (by decide), GatherDims.offCoord_eq_zero _ _ _ (by decide)]
    simp only [Nat.zero_add, Nat.add_zero]
    unfold GatherDims.batchCoord
    rw [dif_pos (show (2 : Fin S32x128x128x5.rank) ∈ gather_S32x128x128x5_S32x128x128x1x1_S32x128x128x1_n_3_012_012_3_4_1111.operandBatchingDims by decide)]
    rfl
  | ⟨3, _⟩ =>
    show gather_S32x128x128x5_S32x128x128x1x1_S32x128x128x1_n_3_012_012_3_4_1111.start (ix4 b i j u) (val_main_call2_v5 (F := Ideal) x6) 3
        + gather_S32x128x128x5_S32x128x128x1x1_S32x128x128x1_n_3_012_012_3_4_1111.batchCoord (ix4 b i j u) 3 + gather_S32x128x128x5_S32x128x128x1x1_S32x128x128x1_n_3_012_012_3_4_1111.offCoord (ix4 b i j u) 3 = _
    rw [GatherDims.batchCoord_eq_zero _ _ _ (by decide), GatherDims.offCoord_eq_zero _ _ _ (by decide)]
    simp only [Nat.add_zero]
    unfold GatherDims.start
    rw [dif_pos (show (3 : Fin S32x128x128x5.rank) ∈ gather_S32x128x128x5_S32x128x128x1x1_S32x128x128x1_n_3_012_012_3_4_1111.startIndexMap by decide)]
    have hsi : gather_S32x128x128x5_S32x128x128x1x1_S32x128x128x1_n_3_012_012_3_4_1111.siIdx (ix4 b i j u) ⟨List.idxOf (3 : Fin S32x128x128x5.rank) gather_S32x128x128x5_S32x128x128x1x1_S32x128x128x1_n_3_012_012_3_4_1111.startIndexMap,
        List.idxOf_lt_length_iff.2 (by decide)⟩ = ix5 b i j u (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi, start_apply]
    rfl

/-- The selected score: the guard is true, the gather picks the word's relation, and on the five words picking by position is
    the chain of equality tests. -/
theorem sel_apply (b : Fin 32) (i j : Fin 128) :
    val_main_v27 (F := Ideal) x0 x1 x2 x3 x4 x5 x6 (ix3 b i j)
      = RelAttn.pick (RelAttn.relWord (x6 (ix3 b i j))) fun r => RelAttn.score (fun i d => x0 (ix3 b i d)) (fun i j => x1 (ix3 b i j)) (fun d r => x2 (ix2 d r)) (fun t r => x3 (ix2 t r)) (fun t => x4 (ix1 t)) (fun t => x5 (ix1 t)) r i j := by
  rw [val_main_v27_apply, val_main_v26_apply, guard_apply]
  rw [idx27_eq, gather_apply, score_apply, RelAttn.pick_eq _ (RelAttn.relWord_cases _)]
  rfl

/-- The masked logits. -/
theorem logitR_apply (b : Fin 32) (i j : Fin 128) :
    val_main_v33 (F := Ideal) x0 x1 x2 x3 x4 x5 x6 (ix3 b i j) = RelAttn.logit (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i j := by
  rw [val_main_v33_apply, edgeR_apply, sel_apply, val_main_call3_v0_apply, val_main_cst_5_apply]
  rfl

/-- The row maxima: the fold of max from −∞ along the row, joined once more with −∞. -/
theorem rowMaxR_apply (b : Fin 32) (i : Fin 128) :
    val_main_v36 (F := Ideal) x0 x1 x2 x3 x4 x5 x6 (ix2 b i) = RelAttn.rowMax (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i := by
  have hR : S32x128x128.Reduces [2] S32x128 := by decide
  rw [val_main_v36_apply, val_main_v35_apply, val_main_cst_7_apply]
  unfold val_main_v34
  rw [Host.reduce_eq_fold_single FloatOps.maximumf _ _ reducesTo_S32x128x128_S32x128_d2 hR h_S_ (ix2 b i)]
  have ef : (val_main_v33 (F := Ideal) x0 x1 x2 x3 x4 x5 x6 ∘ hR.lift (ix2 b i))
      = fun j : Fin 128 => RelAttn.logit (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i j := by
    refine funext fun (k : Fin 128) => ?_
    have ek : hR.lift (ix2 b i) k = ix3 b i k := funext fun a => Fin.ext (by match a with | ⟨0, _⟩ => rfl | ⟨1, _⟩ => rfl | ⟨2, _⟩ => rfl)
    show val_main_v33 (F := Ideal) x0 x1 x2 x3 x4 x5 x6 (hR.lift (ix2 b i) k) = _
    rw [ek, logitR_apply]
  rw [ef]
  show max (Ideal.ofBits .f32 0xFF800000#32)
      ((Finset.univ : Finset (Fin 128)).fold max (Ideal.ofBits .f32 0xFF800000#32) fun j => RelAttn.logit (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i j) = _
  exact max_eq_right ((Finset.le_fold_max _).2 (Or.inl le_rfl))

/-- The shifted exponentials. -/
theorem expoR_apply (b : Fin 32) (i j : Fin 128) :
    val_main_v40 (F := Ideal) x0 x1 x2 x3 x4 x5 x6 (ix3 b i j) = RelAttn.expo (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i j := by
  rw [val_main_v40_apply, val_main_v39_apply, logitR_apply, val_main_v38_apply, val_main_v37_apply]
  have e : idx_main_v37 (idx_main_v38 (ix3 b i j)) = ix2 b i := funext fun a => Fin.ext (by match a with | ⟨0, _⟩ => rfl | ⟨1, _⟩ => rfl)
  rw [e, rowMaxR_apply]
  rfl

/-- The softmax weights. -/
theorem weightR_apply (b : Fin 32) (i j : Fin 128) :
    val_main_v44 (F := Ideal) x0 x1 x2 x3 x4 x5 x6 (ix3 b i j) = RelAttn.weight (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i j := by
  rw [val_main_v44_apply, expoR_apply, val_main_v43_apply, val_main_v42_apply]
  have e : idx_main_v42 (idx_main_v43 (ix3 b i j)) = ix2 b i := funext fun a => Fin.ext (by match a with | ⟨0, _⟩ => rfl | ⟨1, _⟩ => rfl)
  rw [e, val_main_v41_apply, val_main_cst_8_apply]
  have es : ∀ k : Fin 128, val_main_v40 (F := Ideal) x0 x1 x2 x3 x4 x5 x6 (idx_main_v41 (ix2 b i) k) = RelAttn.expo (fun i d => x0 (ix3 b i d)) (fun i j => x6 (ix3 b i j)) (fun i j => x1 (ix3 b i j)) (fun d r => x2 (ix2 d r)) (fun t r => x3 (ix2 t r)) (fun t => x4 (ix1 t)) (fun t => x5 (ix1 t)) i k := by
    intro k
    have ek : idx_main_v41 (ix2 b i) k = ix3 b i k := funext fun a => Fin.ext (by match a with | ⟨0, _⟩ => rfl | ⟨1, _⟩ => rfl | ⟨2, _⟩ => rfl)
    rw [ek, expoR_apply]
  simp only [es]
  show Ideal.div _ (Ideal.ofBits .f32 0x00000000#32 + _) = _
  rw [Ideal.ofBits_zero_f32, zero_add]
  rfl

/-- THE REFERENCE'S RESULT at (b, i, d) is the layer's output. -/
theorem out_apply (b : Fin 32) (i : Fin 128) (d : Fin 256) :
    val_main_v45 (F := Ideal) x0 x1 x2 x3 x4 x5 x6 (ix3 b i d) = RelAttn.layer x0 x1 x2 x3 x4 x5 x6 b i d := by
  rw [val_main_v45_apply]
  unfold RelAttn.layer RelAttn.out
  refine Finset.sum_congr rfl fun k _ => ?_
  have el : lidx_main_v45 (ix3 b i d) k = ix3 b i k := funext fun a => Fin.ext (by match a with | ⟨0, _⟩ => rfl | ⟨1, _⟩ => rfl | ⟨2, _⟩ => rfl)
  have er : ridx_main_v45 (ix3 b i d) k = ix3 b k d := funext fun a => Fin.ext (by match a with | ⟨0, _⟩ => rfl | ⟨1, _⟩ => rfl | ⟨2, _⟩ => rfl)
  rw [el, er, weightR_apply]

/-- The reference's result array is the layer's output array of its arguments. -/
theorem result_eq : val_main_v45 (F := Ideal) x0 x1 x2 x3 x4 x5 x6 = RelAttn.layerArr x0 x1 x2 x3 x4 x5 x6 := by
  funext y
  obtain ⟨b, i, d, rfl⟩ : ∃ (b : Fin 32) (i : Fin 128) (d : Fin 256), y = ix3 b i d := ⟨y 0, y 1, y 2, eq_ix3 y⟩
  rw [RelAttn.layerArr_ix3]
  exact out_apply x0 x1 x2 x3 x4 x5 x6 b i d

end

end Cert.ReferenceIdeal.RefValue

end
-- ==== Proof.lean ====
/-
  Relation-typed graph attention with a cosine interval code: a Pallas kernel against its jnp reference, over the extended reals.

  Both programs compute, for each of 32 batches of 128 nodes with 256 features,
    out b i d = Σ_j softmax_j (logit b i j) · h b j d,
  where logit b i j is, on an edge of type 1, …, 5, the leaky-rectified score of the relation the type names —
  Σ_d h b i d · ap d r · h b j d + Σ_t cos (fr t · v b i j + ph t) · iw t r — and the literal −9e15 on an untyped edge
  (Proof/Spec.lean states this function once, `RelAttn.layerArr`).
  The kernel runs one batch per grid point, scales the features by a relation's vector before one matrix product, sums the code
  along its leading axis, and selects the relation by five equality tests on the clipped type (Proof/KernelBody.lean reads the
  body, Proof/KernelValue.lean the blocks and the array). The reference forms all pairwise feature products, contracts them and
  the code with the tables, and selects the relation by a gather (Proof/RefValue.lean). The two agree because multiplication on
  the extended reals is commutative and associative and because the clipped type is always one of 0, …, 4; no step needs the
  inputs to be finite, so the precondition is never opened.
  The frames of the two kernel programs are the generated ones; the reference's frame is its run with the result dropped; the
  ideal pass rewrote nothing, so `preserves` is trivial.
-/
import proofs.«407681_j52836687675884_3_alg».proof.Defs
import proofs.«407681_j52836687675884_3_alg».proof.Proof.Gen.Kernel
import proofs.«407681_j52836687675884_3_alg».proof.Proof.Gen.Kernel.Skeleton
import proofs.«407681_j52836687675884_3_alg».proof.Proof.Gen.Kernel.Launch
import proofs.«407681_j52836687675884_3_alg».proof.Proof.Gen.Kernel.Points
import proofs.«407681_j52836687675884_3_alg».proof.Proof.Gen.Kernel.Frame
import proofs.«407681_j52836687675884_3_alg».proof.Proof.Gen.KernelIdeal
import proofs.«407681_j52836687675884_3_alg».proof.Proof.Gen.KernelIdeal.Skeleton
import proofs.«407681_j52836687675884_3_alg».proof.Proof.Gen.KernelIdeal.Launch
import proofs.«407681_j52836687675884_3_alg».proof.Proof.Gen.KernelIdeal.Points
import proofs.«407681_j52836687675884_3_alg».proof.Proof.Gen.KernelIdeal.Frame
import proofs.«407681_j52836687675884_3_alg».proof.Proof.Gen.KernelIdeal.Value
import proofs.«407681_j52836687675884_3_alg».proof.Proof.Gen.ReferenceIdeal
import proofs.«407681_j52836687675884_3_alg».proof.Proof.Gen.Pre_finite_inputs
import proofs.«407681_j52836687675884_3_alg».proof.Proof.KernelValue
import proofs.«407681_j52836687675884_3_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel's result array and the reference's are the same array: each is the layer's
    output of the argument arrays (the kernel's by its blocks, the reference's stage by stage). -/
theorem algebraic : Cert.algebraic_KernelIdeal_ReferenceIdeal := by
  intro m ρ m' ρ' _ hagree
  refine ⟨fun c => Cert.KernelIdeal.ArrValue.Gk m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq]
  obtain ⟨h0, h1, h2, h3, h4, h5, h6, -, -⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
